-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  main_v28

def fn {F : FTy → Type} [FloatOps F] (main_arg0 : FVec F S4096x256 .f32) (main_arg1 : FVec F S4096x4096 .f32) (main_arg2 : FVec F S4096x256 .f32) (main_arg3 : FVec F S4096x256 .f32) (main_arg4 : FVec F S4096x4096 .f32) (main_arg5 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S4096x256 : Shape := ⟨2, ![4096, 256]⟩
abbrev S4096x4096 : Shape := ⟨2, ![4096, 4096]⟩
abbrev S1024x1024 : Shape := ⟨2, ![1024, 1024]⟩
abbrev S1024x256 : Shape := ⟨2, ![1024, 256]⟩
abbrev S_ : Shape := ⟨0, ![]⟩
abbrev S256x1024 : Shape := ⟨2, ![256, 1024]⟩

abbrev nBuf : Space → Nat
  | .hbm => 15
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S4096x4096, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x1024, .f32⟩
  | .local _ .vmem, ⟨22, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  bcast_S_S4096x256 : S_.BroadcastsInDim S4096x256 (![] : Fin 0 → Fin S4096x256.rank)
  transposes_S1024x256_p1_0_S256x1024 : S1024x256.Transposes [1, 0] S256x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x256.size a
  hwx0_4 : ∀ i : grid0.Coords, EltTy.bits .f32 = 32 ∨ (Rect.block (s := S4096x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .f32 = 32 ∨ (Rect.block (s := S4096x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x256.size a
  hwx0_7 : ∀ i : grid0.Coords, EltTy.bits .f32 = 32 ∨ (Rect.block (s := S4096x256) S1024x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0_3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S4096x4096, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .i1⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .i1⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_v17 : Ref sig .tc := ⟨.hbm, 35, rfl⟩
abbrev main_cst_7 : Ref sig .tc := ⟨.hbm, 36, rfl⟩
abbrev main_cst_8 : Ref sig .tc := ⟨.hbm, 37, rfl⟩
abbrev main_call4_v0 : Ref sig .tc := ⟨.hbm, 38, rfl⟩
abbrev main_call4_v1 : Ref sig .tc := ⟨.hbm, 39, rfl⟩
abbrev main_v18 : Ref sig .tc := ⟨.hbm, 40, rfl⟩
abbrev main_v19 : Ref sig .tc := ⟨.hbm, 41, rfl⟩
abbrev main_cst_9 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_10 : Ref sig .tc := ⟨.hbm, 46, rfl⟩
abbrev main_v23 : Ref sig .tc := ⟨.hbm, 47, rfl⟩
abbrev main_v24 : Ref sig .tc := ⟨.hbm, 48, rfl⟩
abbrev main_cst_11 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_12 : Ref sig .tc := ⟨.hbm, 53, rfl⟩
abbrev main_v28 : Ref sig .tc := ⟨.hbm, 54, rfl⟩
abbrev main_v29 : Ref sig .tc := ⟨.hbm, 55, rfl⟩
abbrev main_cst_13 : Ref sig .tc := ⟨.hbm, 56, rfl⟩
abbrev main_v30 : Ref sig .tc := ⟨.hbm, 57, rfl⟩
abbrev main_v31 : Ref sig .tc := ⟨.hbm, 58, rfl⟩
abbrev main_cst_14 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []
  dot_S4096x256_S4096x256_S4096x4096_1_1_0_0_n_n_wf : DotDims.WF S4096x256 S4096x256 S4096x4096 [1] [1] [0] [0] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf

class Facts : Prop extends Facts₀ where

variable [Facts]
-- ==== Proof.KI.R0Data.lean ====
/-
  Region 0 (the blocked product W·x with the neuron update fused at the last reduction step), its proof data.
  A grid point is (i, k), position t = 4·i + k. The scratch accumulator after position t holds
  acc(t) = (0 if k = 0, else acc(t-1)) + W[i-th row block, k-th column block] · x[k-th row block];
  at k = 3 the four outputs' blocks are the update's pointwise functions of acc(t) and of the u and r blocks.
-/
import proofs.«155521_j41248865910902_1_alg».proof.Proof.Gen.KernelIdeal.Launch
import proofs.«155521_j41248865910902_1_alg».proof.Proof.Gen.KernelIdeal.Skeleton
import proofs.«155521_j41248865910902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: the W block, the x block, the u block, the r block. -/
abbrev wblk (c : Dev nD) (t : Fin cfg0.N) : Vec F S1024x1024 .f32 := iblk0 V c 0 t
abbrev xblk (c : Dev nD) (t : Fin cfg0.N) : Vec F S1024x256 .f32 := iblk0 V c 1 t
abbrev ublk (c : Dev nD) (t : Fin cfg0.N) : Vec F S1024x256 .f32 := iblk0 V c 2 t
abbrev rblk (c : Dev nD) (t : Fin cfg0.N) : Vec F S1024x256 .f32 := iblk0 V c 3 t

/-- The accumulator after the body at position `n`: restarted from zero where k = 0 (n ≡ 0 mod 4), else continued
    from the position before; then the block product added. -/
def accAt (c : Dev nD) : (n : ℕ) → n < cfg0.N → Vec F S1024x256 .f32
  | 0, hn => k0_pay2 (wblk V c ⟨0, hn⟩) (xblk V c ⟨0, hn⟩) k0_pay1
  | n + 1, hn => k0_pay2 (wblk V c ⟨n + 1, hn⟩) (xblk V c ⟨n + 1, hn⟩)
      (if (n + 1) % 4 = 0 then k0_pay1 else accAt c n (Nat.lt_of_succ_lt hn))

theorem accAt_reset (c : Dev nD) (t : Fin cfg0.N) (h : t.val % 4 = 0) :
    accAt V c t.val t.isLt = k0_pay2 (wblk V c t) (xblk V c t) k0_pay1 := by
  obtain ⟨n, hn⟩ := t
  cases n with
  | zero => rfl
  | succ n => simp only [accAt]; rw [if_pos h]

theorem accAt_step (c : Dev nD) (t : Fin cfg0.N) (h : ¬ t.val % 4 = 0) :
    accAt V c t.val t.isLt = k0_pay2 (wblk V c t) (xblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The body's two branches, decided over the grid -/

/-- The first branch (the accumulator's restart) is taken where k = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (the update and the four stores) is taken where k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle; the output windows are idle, and not written back, exactly where k ≠ 3. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_out : ∀ t : Fin cfg0.N, ¬cond0_1 (grid0.coords t) → cfg0.idle 4 (grid0.coords t) = true ∧ cfg0.idle 5 (grid0.coords t) = true ∧ cfg0.idle 6 (grid0.coords t) = true ∧ cfg0.idle 7 (grid0.coords t) = true := by decide +kernel
theorem noFlush0_out : ∀ t : Fin cfg0.N, ¬cond0_1 (grid0.coords t) → (cfg0.win 4).flush t = false ∧ (cfg0.win 5).flush t = false ∧ (cfg0.win 6).flush t = false ∧ (cfg0.win 7).flush t = false := by decide +kernel
theorem liveAt0_out : ∀ t : Fin cfg0.N, cond0_1 (grid0.coords t) → cfg0.idle 4 (grid0.coords t) = false ∧ cfg0.idle 5 (grid0.coords t) = false ∧ cfg0.idle 6 (grid0.coords t) = false ∧ cfg0.idle 7 (grid0.coords t) = false := by decide +kernel

/-- The scratch accumulator as a memref. -/
abbrev scM : Memref sig .tc .vmem S1024x256 .f32 := Memref.whole cc0_scratch0

/-- The core's scoped buffers that region 0 neither stages nor uses (region 1's staging buffers), each at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM fullShare d) ∗ restOthers c) ∗ (∃ r, prngReg c r)) := by
  unfold Pipeline.ΦA restOthers; rw [scopedRest0_eq]; simp only [scM, owns_whole]; rfl

/-- The region invariant before position `n`: before the first point the class's (the scratch at anything);
    afterwards the scratch at the accumulator the position before left. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restOthers c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restOthers c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restOthers c) ∗ (∃ r, prngReg c r)) := by
  cases n with
  | zero => exact absurd rfl hz
  | succ n => rfl

/-- The proof data of pipeline 0 on core `c`: the arrays as the region finds them; after the body each input's buffer
    at its block; each output's at the update's function of the accumulator and the u, r blocks (consulted only at
    k = 3, where the body stores them and the pipeline writes them back); the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay8 (accAt V c t.val t.isLt) (ublk V c t) (rblk V c t)
    | ⟨5, _⟩ => k0_pay6 (accAt V c t.val t.isLt) (ublk V c t) (rblk V c t)
    | ⟨6, _⟩ => k0_pay7 (accAt V c t.val t.isLt) (ublk V c t) (rblk V c t)
    | ⟨7, _⟩ => k0_pay9 (accAt V c t.val t.isLt) (ublk V c t) (rblk V c t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay8 (accAt V c t.val t.isLt) (ublk V c t) (rblk V c t) := by dsimp only [dat0]
theorem after0_5 (c : Dev nD) (t : Fin cfg0.N) : (dat0 V c).after 5 t = k0_pay6 (accAt V c t.val t.isLt) (ublk V c t) (rblk V c t) := by dsimp only [dat0]
theorem after0_6 (c : Dev nD) (t : Fin cfg0.N) : (dat0 V c).after 6 t = k0_pay7 (accAt V c t.val t.isLt) (ublk V c t) (rblk V c t) := by dsimp only [dat0]
theorem after0_7 (c : Dev nD) (t : Fin cfg0.N) : (dat0 V c).after 7 t = k0_pay9 (accAt V c t.val t.isLt) (ublk V c t) (rblk V c t) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Region0

end Cert.KernelIdeal.Hand

end
-- ==== Proof.KI.R0Runs.lean ====
/-
  The body of region 0 run once in each of its three control cases (k = 0; k = 1, 2; k = 3), on any whole staging
  memrefs: the inputs' buffers are read and left as they were; the accumulator ends at the block product added to
  zero (k = 0) or to what it held; at k ≠ 3 the outputs' buffers are not touched; at k = 3 they end at the update's
  functions of the new accumulator and the u and r blocks.
-/
import proofs.«155521_j41248865910902_1_alg».proof.Proof.KI.R0Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, as the constant function (both shapes have rank 2). -/
private theorem hz256 : (![0, 0] : Fin S1024x256.rank → ℕ) = fun _ => 0 := by
  funext a; fin_cases a <;> rfl
private theorem hz1024 : (![0, 0] : Fin S1024x1024.rank → ℕ) = fun _ => 0 := by
  funext a; fin_cases a <;> rfl

/-- The whole-buffer rectangle of the body's 1024×256 accesses. -/
private abbrev rAll : Rect S1024x256 := Rect.unit (s := S1024x256) ![0, 0] S1024x256.size inb_S1024x256_S1024x256_0_0

/-- Writes whose last one goes through the whole-buffer rectangle cover the buffer, -/
private theorem cover_last (w : rAll.shape.Idx → Elt F .f32) (L : List (View.Piece (Elt F) S1024x256 .f32)) (y : S1024x256.Idx) :
    ∃ p ∈ ((⟨rAll, w⟩ : View.Piece (Elt F) S1024x256 .f32) :: L), y ∈ p.1.set :=
  ⟨⟨rAll, w⟩, List.mem_cons_self, View.mem_set_unit_zero hz256 inb_S1024x256_S1024x256_0_0 y⟩

/-- so what they leave reads as the last write's payload, whatever the earlier writes and the prior contents were. -/
private theorem read_last {κ : Kind} {sp : Space} (v : View sig κ sp S1024x256 .f32) (f : v.ty.Contents (Elt F))
    (w : rAll.shape.Idx → Elt F .f32) (L : List (View.Piece (Elt F) S1024x256 .f32)) :
    v.read (Elt F) (v.writes (Elt F) f ((⟨rAll, w⟩ : View.Piece (Elt F) S1024x256 .f32) :: L)) = w := by
  rw [View.read_writes_eq_canon _ _ _ (cover_last _ _), View.canon_cons_unit_zero (S := S1024x256) hz256]

set_option maxHeartbeats 1000000 in
/-- k = 0: the accumulator restarts. -/
theorem run0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .f32) (x1 x2 x3 xi4 xi5 xi6 xi7 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare (k0_pay2 x0 x1 k0_pay1)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  -- the accumulator: zero stored, read back, and the sum stored over it
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

set_option maxHeartbeats 1000000 in
/-- k = 1, 2: the accumulator continues. -/
theorem run0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .f32) (x1 x2 x3 xi4 xi5 xi6 xi7 xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1
  obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  -- the accumulator: the sum stored over what it held
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

set_option maxHeartbeats 1000000 in
/-- k = 3: the accumulator continues, then the update is computed from it and stored into the four outputs. -/
theorem run0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .f32) (x1 x2 x3 xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay8 (k0_pay2 x0 x1 xs) x2 x3) ∗ owns (c : Thread nD τ) arg7 fullShare (k0_pay6 (k0_pay2 x0 x1 xs) x2 x3) ∗ owns (c : Thread nD τ) arg8 fullShare (k0_pay7 (k0_pay2 x0 x1 xs) x2 x3) ∗ owns (c : Thread nD τ) arg9 fullShare (k0_pay9 (k0_pay2 x0 x1 xs) x2 x3) ∗ owns (c : Thread nD τ) arg10 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
  obtain rfl := harg2.eq_unread hf0; obtain rfl := harg3.eq_unread hf1
  obtain rfl := harg4.eq_unread hf2; obtain rfl := harg5.eq_unread hf3
  obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  -- each output: one store of the update's function of the accumulator read back after its store, and of the u, r blocks
  isplitl [H4]
  · iexists _; isplitr
    swap; · iexact H4
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H5]
  · iexists _; isplitr
    swap; · iexact H5
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H6]
  · iexists _; isplitr
    swap; · iexact H6
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H7]
  · iexists _; isplitr
    swap; · iexact H7
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  -- the accumulator: the sum stored over what it held
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

end Cert.KernelIdeal.Hand

end
-- ==== Proof.KI.R0Oblig.lean ====
/-
  Region 0's body obligation: at every grid point the body, handed the invariant (the accumulator at what the point
  before left), and every window's current staging buffer at what it then holds, leaves the invariant at the next
  point and every buffer at the proof data's contents — by the point's control case.
-/
import proofs.«155521_j41248865910902_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input's current staging buffer holds its block at every point, fetched there or not. -/
theorem before0_0 (c : Dev nD) (t : Fin cfg0.N) (d) : (dat0 V c).before 0 t d = iblk0 V c 0 t := by
  -- an input that the body leaves in place holds, at every point, what a fetch there would put in the buffer;
  -- the window is uncut, so that is the array's block at the point
  have hkeep : ∀ s, (cfg0.win 0).cut (cfg0.grid.coords s) ((dat0 V c).after 0 s) = (dat0 V c).blockOf 0 s := by
    intro s; rw [after0_0]; unfold Dat.blockOf iblk0; rw [A_eq0]
  rw [(dat0 V c).before_in_eq_fetched 0 rfl (fun _ => rfl) (fun _ _ _ => rfl) hkeep t d]
  unfold Dat.fetched Dat.blockOf iblk0; rw [A_eq0]; rfl
theorem before0_1 (c : Dev nD) (t : Fin cfg0.N) (d) : (dat0 V c).before 1 t d = iblk0 V c 1 t := by
  -- an input that the body leaves in place holds, at every point, what a fetch there would put in the buffer;
  -- the window is uncut, so that is the array's block at the point
  have hkeep : ∀ s, (cfg0.win 1).cut (cfg0.grid.coords s) ((dat0 V c).after 1 s) = (dat0 V c).blockOf 1 s := by
    intro s; rw [after0_1]; unfold Dat.blockOf iblk0; rw [A_eq0]
  rw [(dat0 V c).before_in_eq_fetched 1 rfl (fun _ => rfl) (fun _ _ _ => rfl) hkeep t d]
  unfold Dat.fetched Dat.blockOf iblk0; rw [A_eq0]; rfl
theorem before0_2 (c : Dev nD) (t : Fin cfg0.N) (d) : (dat0 V c).before 2 t d = iblk0 V c 2 t := by
  -- an input that the body leaves in place holds, at every point, what a fetch there would put in the buffer;
  -- the window is uncut, so that is the array's block at the point
  have hkeep : ∀ s, (cfg0.win 2).cut (cfg0.grid.coords s) ((dat0 V c).after 2 s) = (dat0 V c).blockOf 2 s := by
    intro s; rw [after0_2]; unfold Dat.blockOf iblk0; rw [A_eq0]
  rw [(dat0 V c).before_in_eq_fetched 2 rfl (fun _ => rfl) (fun _ _ _ => rfl) hkeep t d]
  unfold Dat.fetched Dat.blockOf iblk0; rw [A_eq0]; rfl
theorem before0_3 (c : Dev nD) (t : Fin cfg0.N) (d) : (dat0 V c).before 3 t d = iblk0 V c 3 t := by
  -- an input that the body leaves in place holds, at every point, what a fetch there would put in the buffer;
  -- the window is uncut, so that is the array's block at the point
  have hkeep : ∀ s, (cfg0.win 3).cut (cfg0.grid.coords s) ((dat0 V c).after 3 s) = (dat0 V c).blockOf 3 s := by
    intro s; rw [after0_3]; unfold Dat.blockOf iblk0; rw [A_eq0]
  rw [(dat0 V c).before_in_eq_fetched 3 rfl (fun _ => rfl) (fun _ _ _ => rfl) hkeep t d]
  unfold Dat.fetched Dat.blockOf iblk0; rw [A_eq0]; rfl

/-! ## What the body leaves in each window's buffer, by the point's control case -/

/-- An input's buffer is left at its block at every point (an input is never idle). -/
theorem leaves0_0 (c : Dev nD) (t : Fin cfg0.N) :
    (dat0 V c).leavesExact 0 t = owns (c : Thread nD τ) (st0_0 t) fullShare (iblk0 V c 0 t) := by
  have h : (dat0 V c).leavesExact 0 t = owns (c : Thread nD τ) (st0_0 t) fullShare ((dat0 V c).after 0 t) := by
    unfold Dat.leavesExact; rw [liveAt0_0 t]
  rw [h, after0_0]
theorem leaves0_1 (c : Dev nD) (t : Fin cfg0.N) :
    (dat0 V c).leavesExact 1 t = owns (c : Thread nD τ) (st0_1 t) fullShare (iblk0 V c 1 t) := by
  have h : (dat0 V c).leavesExact 1 t = owns (c : Thread nD τ) (st0_1 t) fullShare ((dat0 V c).after 1 t) := by
    unfold Dat.leavesExact; rw [liveAt0_1 t]
  rw [h, after0_1]
theorem leaves0_2 (c : Dev nD) (t : Fin cfg0.N) :
    (dat0 V c).leavesExact 2 t = owns (c : Thread nD τ) (st0_2 t) fullShare (iblk0 V c 2 t) := by
  have h : (dat0 V c).leavesExact 2 t = owns (c : Thread nD τ) (st0_2 t) fullShare ((dat0 V c).after 2 t) := by
    unfold Dat.leavesExact; rw [liveAt0_2 t]
  rw [h, after0_2]
theorem leaves0_3 (c : Dev nD) (t : Fin cfg0.N) :
    (dat0 V c).leavesExact 3 t = owns (c : Thread nD τ) (st0_3 t) fullShare (iblk0 V c 3 t) := by
  have h : (dat0 V c).leavesExact 3 t = owns (c : Thread nD τ) (st0_3 t) fullShare ((dat0 V c).after 3 t) := by
    unfold Dat.leavesExact; rw [liveAt0_3 t]
  rw [h, after0_3]

/-- Where k ≠ 3 an output's window is idle and not written back: its buffer comes back at what it held. -/
theorem leaves0_4_idle (c : Dev nD) (t : Fin cfg0.N) (h : ¬cond0_1 (grid0.coords t)) :
    (dat0 V c).leavesExact 4 t = iprop(∃ d, owns (c : Thread nD τ) (st0_4 t) fullShare ((dat0 V c).before 4 t d)) :=
  Dat.leavesExact_idle (dat0 V c) 4 t (idleAt0_out t h).1 (noFlush0_out t h).1
theorem leaves0_5_idle (c : Dev nD) (t : Fin cfg0.N) (h : ¬cond0_1 (grid0.coords t)) :
    (dat0 V c).leavesExact 5 t = iprop(∃ d, owns (c : Thread nD τ) (st0_5 t) fullShare ((dat0 V c).before 5 t d)) :=
  Dat.leavesExact_idle (dat0 V c) 5 t (idleAt0_out t h).2.1 (noFlush0_out t h).2.1
theorem leaves0_6_idle (c : Dev nD) (t : Fin cfg0.N) (h : ¬cond0_1 (grid0.coords t)) :
    (dat0 V c).leavesExact 6 t = iprop(∃ d, owns (c : Thread nD τ) (st0_6 t) fullShare ((dat0 V c).before 6 t d)) :=
  Dat.leavesExact_idle (dat0 V c) 6 t (idleAt0_out t h).2.2.1 (noFlush0_out t h).2.2.1
theorem leaves0_7_idle (c : Dev nD) (t : Fin cfg0.N) (h : ¬cond0_1 (grid0.coords t)) :
    (dat0 V c).leavesExact 7 t = iprop(∃ d, owns (c : Thread nD τ) (st0_7 t) fullShare ((dat0 V c).before 7 t d)) :=
  Dat.leavesExact_idle (dat0 V c) 7 t (idleAt0_out t h).2.2.2 (noFlush0_out t h).2.2.2

/-- Where k = 3 an output's buffer is left at the update's function of the accumulator and the u and r blocks. -/
theorem leaves0_4_live (c : Dev nD) (t : Fin cfg0.N) (h : cond0_1 (grid0.coords t)) :
    (dat0 V c).leavesExact 4 t
      = owns (c : Thread nD τ) (st0_4 t) fullShare (k0_pay8 (accAt V c t.val t.isLt) (ublk V c t) (rblk V c t)) := by
  have h' : (dat0 V c).leavesExact 4 t = owns (c : Thread nD τ) (st0_4 t) fullShare ((dat0 V c).after 4 t) := by
    unfold Dat.leavesExact; rw [(liveAt0_out t h).1]
  rw [h', after0_4]
theorem leaves0_5_live (c : Dev nD) (t : Fin cfg0.N) (h : cond0_1 (grid0.coords t)) :
    (dat0 V c).leavesExact 5 t
      = owns (c : Thread nD τ) (st0_5 t) fullShare (k0_pay6 (accAt V c t.val t.isLt) (ublk V c t) (rblk V c t)) := by
  have h' : (dat0 V c).leavesExact 5 t = owns (c : Thread nD τ) (st0_5 t) fullShare ((dat0 V c).after 5 t) := by
    unfold Dat.leavesExact; rw [(liveAt0_out t h).2.1]
  rw [h', after0_5]
theorem leaves0_6_live (c : Dev nD) (t : Fin cfg0.N) (h : cond0_1 (grid0.coords t)) :
    (dat0 V c).leavesExact 6 t
      = owns (c : Thread nD τ) (st0_6 t) fullShare (k0_pay7 (accAt V c t.val t.isLt) (ublk V c t) (rblk V c t)) := by
  have h' : (dat0 V c).leavesExact 6 t = owns (c : Thread nD τ) (st0_6 t) fullShare ((dat0 V c).after 6 t) := by
    unfold Dat.leavesExact; rw [(liveAt0_out t h).2.2.1]
  rw [h', after0_6]
theorem leaves0_7_live (c : Dev nD) (t : Fin cfg0.N) (h : cond0_1 (grid0.coords t)) :
    (dat0 V c).leavesExact 7 t
      = owns (c : Thread nD τ) (st0_7 t) fullShare (k0_pay9 (accAt V c t.val t.isLt) (ublk V c t) (rblk V c t)) := by
  have h' : (dat0 V c).leavesExact 7 t = owns (c : Thread nD τ) (st0_7 t) fullShare ((dat0 V c).after 7 t) := by
    unfold Dat.leavesExact; rw [(liveAt0_out t h).2.2.2]
  rw [h', after0_7]

/-- The invariant before any position gives the scratch at some contents, the other scoped buffers and the generator
    register: before the first point it is exactly that; afterwards the accumulator's named contents are forgotten. -/
theorem PhiS_forget (c : Dev nD) (n : ℕ) (h : n ≤ cfg0.N) :
    PhiS V c n h ⊢ iprop(iprop((∃ d, owns (c : Thread nD τ) scM fullShare d) ∗ restOthers c) ∗ (∃ r, prngReg c r)) := by
  cases n with
  | zero => rw [PhiS_zero V c 0 h rfl, PhiA0_eq]
  | succ n =>
    rw [PhiS_succ]
    iintro ⟨⟨HS, Hr⟩, Hg⟩
    isplitl [HS Hr]
    · isplitl [HS]
      · iexists _; iexact HS
      · iexact Hr
    · iexact Hg

/-! ## The body obligation, at a generic point -/

/-- What the body is called with at point `t`: the invariant, what the core owes, and every window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the invariant at the next point, the same debts, every buffer at what the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks. The position's residue mod 4 says which control
    case the point is in. At k = 0 the invariant gives the scratch at some contents and the body restarts the
    accumulator; at k ≠ 0 it gives the scratch at the accumulator of the position before and the body continues it.
    At k ≠ 3 each output's buffer is handed back at what it held; at k = 3 each is stored whole with the update's
    function of the new accumulator. The other scoped buffers, the generator register and the debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ, PhiS_castSucc]
  rw [leaves0_0, leaves0_1, leaves0_2, leaves0_3]
  have hN : t.val < 16 := lt_of_lt_of_eq t.isLt (show cfg0.N = 16 from N_0)
  by_cases h0 : t.val % 4 = 0
  · -- k = 0: the accumulator restarts from zero, whatever the scratch held
    have h1 : ¬ t.val % 4 = 3 := by omega
    have hc0 : cond0_0 (grid0.coords t) := (hcond0_0 t).mpr h0
    have hc1 : ¬cond0_1 (grid0.coords t) := fun h => h1 ((hcond0_1 t).mp h)
    rw [leaves0_4_idle V c t hc1, leaves0_5_idle V c t hc1, leaves0_6_idle V c t hc1, leaves0_7_idle V c t hc1]
    rw [accAt_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨⟨HS, Hr⟩, Hg⟩ := (PhiS_forget V c _ _) $$ HΦ
    iapply (run0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
      (wblk V c t) (xblk V c t) (ublk V c t) (rblk V c t) ((dat0 V c).before 4 t d4) ((dat0 V c).before 5 t d5) ((dat0 V c).before 6 t d6) ((dat0 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]
        · iexact HS
        · iexact Hr
      · iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    iexists d7; iexact H7
  · have hz : t.val ≠ 0 := fun e => h0 (by rw [e])
    have hc0 : ¬cond0_0 (grid0.coords t) := fun h => h0 ((hcond0_0 t).mp h)
    rw [PhiS_pos V c _ _ hz, accAt_step V c t h0]
    by_cases h1 : t.val % 4 = 3
    · -- k = 3: the accumulator continues, and the four outputs are stored from it
      have hc1 : cond0_1 (grid0.coords t) := (hcond0_1 t).mpr h1
      rw [leaves0_4_live V c t hc1, leaves0_5_live V c t hc1, leaves0_6_live V c t hc1, leaves0_7_live V c t hc1]
      rw [accAt_step V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
        (wblk V c t) (xblk V c t) (ublk V c t) (rblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS Hr Hg]
      · isplitl [HS Hr]
        · isplitl [HS]
          · iexact HS
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- k = 1, 2: the accumulator continues; the outputs are not touched
      have hc1 : ¬cond0_1 (grid0.coords t) := fun h => h1 ((hcond0_1 t).mp h)
      rw [leaves0_4_idle V c t hc1, leaves0_5_idle V c t hc1, leaves0_6_idle V c t hc1, leaves0_7_idle V c t hc1]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
        (wblk V c t) (xblk V c t) (ublk V c t) (rblk V c t) ((dat0 V c).before 4 t d4) ((dat0 V c).before 5 t d5) ((dat0 V c).before 6 t d6) ((dat0 V c).before 7 t d7) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hr Hg]
      · isplitl [HS Hr]
        · isplitl [HS]
          · iexact HS
          · iexact Hr
        · iexact Hg
      isplitl [Ho]; · iexact Ho
      isplitl [H0]; · iexact H0
      isplitl [H1]; · iexact H1
      isplitl [H2]; · iexact H2
      isplitl [H3]; · iexact H3
      isplitl [H4]; · iexists d4; iexact H4
      isplitl [H5]; · iexists d5; iexact H5
      isplitl [H6]; · iexists d6; iexact H6
      iexists d7; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [PhiA0_eq, show (dat0 V c).Φ (Fin.last cfg0.N)
      = PhiS V c (Fin.last cfg0.N).val (Nat.le_of_lt_succ (Fin.last cfg0.N).isLt) from rfl]
  exact PhiS_forget V c _ _

end Cert.KernelIdeal.Hand

end
-- ==== Proof.KI.R1Data.lean ====
/-
  Region 1 (e' = h·eps'ᵀ, one 1024 × 1024 block per grid point), its proof data: the block of e' at point (i, j) is
  the product of the i-th row block of h with the transpose of the j-th row block of eps'.
-/
import proofs.«155521_j41248865910902_1_alg».proof.Proof.Gen.KernelIdeal.Launch
import proofs.«155521_j41248865910902_1_alg».proof.Proof.Gen.KernelIdeal.Skeleton
import proofs.«155521_j41248865910902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The h block and the eps' block at a point, at their literal types. -/
abbrev hblk (c : Dev nD) (t : Fin cfg1.N) : Vec F S1024x256 .f32 := iblk1 V c 0 t
abbrev eblk (c : Dev nD) (t : Fin cfg1.N) : Vec F S1024x256 .f32 := iblk1 V c 1 t

/-- The proof data of pipeline 1 on core `c`: the arrays as the region finds them; after the body each input's buffer at
    its block and the output's at the block product; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (hblk V c t) (eblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (hblk V c t) (eblk V c t) := by dsimp only [dat1]

end Region1

end Cert.KernelIdeal.Hand

end
-- ==== Proof.KI.R1.lean ====
/-
  Region 1's body: one load of each input block, the product of the h block with the transposed eps' block,
  one store of the output block; and the body obligation it gives at every grid point.
-/
import proofs.«155521_j41248865910902_1_alg».proof.Proof.KI.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's accesses: each staging buffer whole, through the unit rectangle at offset zero -/

abbrev rIn1 : Rect S1024x256 := Rect.unit (s := S1024x256) ![0, 0] S1024x256.size inb_S1024x256_S1024x256_0_0
abbrev rOut1 : Rect S1024x1024 := Rect.unit (s := S1024x1024) ![0, 0] S1024x1024.size inb_S1024x1024_S1024x1024_0_0

theorem zeros2 : (![0, 0] : Fin 2 → Nat) = fun _ => 0 := funext fun a => by fin_cases a <;> rfl

/-- The one store covers the output's staging buffer. -/
theorem cover1_2 (p : Vec F S1024x1024 .f32) (y : S1024x1024.Idx) :
    ∃ pc ∈ ([⟨rOut1, p⟩] : List (View.Piece (Elt F) S1024x1024 .f32)), y ∈ pc.1.set :=
  ⟨_, List.mem_singleton_self _, View.mem_set_unit_zero (S := S1024x1024) zeros2 inb_S1024x1024_S1024x1024_0_0 y⟩

/-! ## The body's triple -/

set_option maxHeartbeats 1000000 in
/-- The kernel on whole staging memrefs, the inputs' reading `x0`, `x1` and the output's anything, runs to the
    continuation with the inputs' as they were and the output's holding the product of `x0` with the transposed `x1`. -/
theorem sound_kernel1 (c : Dev nD) (E : Set ℕ) (i : grid1.Coords)
    (arg2 : Memref sig .tc .vmem S1024x256 .f32) (harg2 : arg2.IsWhole)
    (arg3 : Memref sig .tc .vmem S1024x256 .f32) (harg3 : arg3.IsWhole)
    (arg4 : Memref sig .tc .vmem S1024x1024 .f32) (harg4 : arg4.IsWhole)
    (x0 x1 : Vec F S1024x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__kernel_c i arg2 harg2 arg3 harg3 arg4 harg4) K := by
  simp only [cc1__kernel_c_eq_skeleton]; unfold cc1__kernel_c_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rw [View.canon_unit_zero (S := S1024x1024) zeros2 inb_S1024x1024_S1024x1024_0_0]
  exact congrArg₂ k1_pay1
    (View.ld_unit_zero (S := S1024x256) zeros2 inb_S1024x256_S1024x256_0_0 (View.read (Elt F) arg2.view f0))
    (View.ld_unit_zero (S := S1024x256) zeros2 inb_S1024x256_S1024x256_0_0 (View.read (Elt F) arg3.view f1))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: region 0, the four host operations that make eps' = 0.1·eps + inp, region 1.
  Between two items every unscoped buffer is held at a valuation: the launch memory; after region 0 its four
  result arrays at what the write-backs left; after the host operations their results; after region 1 the array e'.
-/
import proofs.«155521_j41248865910902_1_alg».proof.Proof.Gen.KernelIdeal.Regions
import proofs.«155521_j41248865910902_1_alg».proof.Proof.KI.R0Oblig
import proofs.«155521_j41248865910902_1_alg».proof.Proof.KI.R1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 is entered from the launch memory. -/
abbrev Vt0 : (c : Dev nD) → (b : Ref sig .tc) → Buf (Elt F) ((c : Thread nD τ).loc b) := fun c b => V0 m c b

/-- What region 0 leaves in a buffer: its arrays at what the pipeline's write-backs leave, anything else as entered. -/
def o1 (r : Ref sig .tc) (c : Dev nD) : Buf (Elt F) ((c : Thread nD τ).loc r) :=
  Pipeline.withArrays spec0 c (V0 m c) (fun w => (dat0 (Vt0 m) c).arrAt w cfg0.N) (Proc.devRef .tc r)
/-- The first stage of the regions' unknowns: region 0's. -/
def outsA : Outs (F := F) := fun _ r c => o1 m r c
/-- Region 1 is entered from the contents after the host operations. -/
abbrev Vt2 : (c : Dev nD) → (b : Ref sig .tc) → Buf (Elt F) ((c : Thread nD τ).loc b) := fun c b => V2 m (outsA m) c b
/-- What region 1 leaves in a buffer. -/
def o3 (r : Ref sig .tc) (c : Dev nD) : Buf (Elt F) ((c : Thread nD τ).loc r) :=
  Pipeline.withArrays spec1 c (V2 m (outsA m) c) (fun w => (dat1 (Vt2 m) c).arrAt w cfg1.N) (Proc.devRef .tc r)
/-- What the regions leave: region 0's results after item 0, region 1's after item 2. -/
def outs : Outs (F := F) := fun J r c => if J = 3 then o3 m r c else o1 m r c

theorem V1_outs (c : Dev nD) : V1 m (outs m) c = V1 m (outsA m) c := rfl
theorem V2_outs (c : Dev nD) : V2 m (outs m) c = V2 m (outsA m) c := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt0 m) c
  | ⟨1, _⟩ => fun c => dat1 (Vt2 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The values of region 0's and region 1's arrays inside the valuations -/

/-- The four result references of region 0 are pairwise distinct buffers. -/
private theorem ne_01 : (Proc.devRef .tc main_v0_0 : DevRef τ sig) ≠ Proc.devRef .tc main_v0_1 := StableHlo.devRef_ne_of_ne (by decide)
private theorem ne_02 : (Proc.devRef .tc main_v0_0 : DevRef τ sig) ≠ Proc.devRef .tc main_v0_2 := StableHlo.devRef_ne_of_ne (by decide)
private theorem ne_03 : (Proc.devRef .tc main_v0_0 : DevRef τ sig) ≠ Proc.devRef .tc main_v0_3 := StableHlo.devRef_ne_of_ne (by decide)
private theorem ne_12 : (Proc.devRef .tc main_v0_1 : DevRef τ sig) ≠ Proc.devRef .tc main_v0_2 := StableHlo.devRef_ne_of_ne (by decide)
private theorem ne_13 : (Proc.devRef .tc main_v0_1 : DevRef τ sig) ≠ Proc.devRef .tc main_v0_3 := StableHlo.devRef_ne_of_ne (by decide)
private theorem ne_23 : (Proc.devRef .tc main_v0_2 : DevRef τ sig) ≠ Proc.devRef .tc main_v0_3 := StableHlo.devRef_ne_of_ne (by decide)

/-- Region 0's exit contents at one of its arrays is what the write-backs left there. -/
private theorem o1_arr (c : Dev nD) (w : Fin cfg0.W) :
    Pipeline.withArrays spec0 c (V0 m c) (fun w => (dat0 (Vt0 m) c).arrAt w cfg0.N) (Proc.devRef .tc (Pipeline.arrRef spec0 w))
      = (dat0 (Vt0 m) c).arrAt w cfg0.N :=
  Pipeline.withArrays_arr spec0 launch0.win.arr_inj c (V0 m c) (fun w => (dat0 (Vt0 m) c).arrAt w cfg0.N) w
/-- Region 1's exit contents at one of its arrays. -/
private theorem o3_arr (c : Dev nD) (w : Fin cfg1.W) :
    Pipeline.withArrays spec1 c (V2 m (outsA m) c) (fun w => (dat1 (Vt2 m) c).arrAt w cfg1.N) (Proc.devRef .tc (Pipeline.arrRef spec1 w))
      = (dat1 (Vt2 m) c).arrAt w cfg1.N :=
  Pipeline.withArrays_arr spec1 launch1.win.arr_inj c (V2 m (outsA m) c) (fun w => (dat1 (Vt2 m) c).arrAt w cfg1.N) w

theorem V1_v0_0 (c : Dev nD) : V1 m (outs m) c main_v0_0 = (dat0 (Vt0 m) c).arrAt 4 cfg0.N := by
  rw [V1, Function.update_of_ne ne_03, Function.update_of_ne ne_02, Function.update_of_ne ne_01, Function.update_self]
  exact o1_arr m c 4
theorem V1_v0_1 (c : Dev nD) : V1 m (outs m) c main_v0_1 = (dat0 (Vt0 m) c).arrAt 5 cfg0.N := by
  rw [V1, Function.update_of_ne ne_13, Function.update_of_ne ne_12, Function.update_self]
  exact o1_arr m c 5
theorem V1_v0_2 (c : Dev nD) : V1 m (outs m) c main_v0_2 = (dat0 (Vt0 m) c).arrAt 6 cfg0.N := by
  rw [V1, Function.update_of_ne ne_23, Function.update_self]
  exact o1_arr m c 6
theorem V1_v0_3 (c : Dev nD) : V1 m (outs m) c main_v0_3 = (dat0 (Vt0 m) c).arrAt 7 cfg0.N := by
  rw [V1, Function.update_self]
  exact o1_arr m c 7
/-- The host operations leave eps' = 0.1·eps + inp in their last result. -/
theorem V2_v3 (c : Dev nD) : V2 m (outs m) c main_v3 =
    addf (mulf (broadcastInDim S4096x256 ![] bcast_S_S4096x256 (constant (F := F) S_ .f32 0x3DCCCCCD#32)) (m ((c : Thread nD τ).loc main_arg5))) (m ((c : Thread nD τ).loc main_arg0)) := by
  show StableHlo.after hostOps1 _ (Proc.devRef .tc main_v3) = _
  after_results
  rw [V1_of m (outs m) c main_arg5 (by decide), V1_of m (outs m) c main_arg0 (by decide)]
theorem V3_v0_0 (c : Dev nD) : V3 m (outs m) c main_v0_0 = (dat0 (Vt0 m) c).arrAt 4 cfg0.N :=
  (V3_of m (outs m) c main_v0_0 (by decide)).trans <| (V2_of m (outs m) c main_v0_0 (by decide)).trans (V1_v0_0 m c)
theorem V3_v0_1 (c : Dev nD) : V3 m (outs m) c main_v0_1 = (dat0 (Vt0 m) c).arrAt 5 cfg0.N :=
  (V3_of m (outs m) c main_v0_1 (by decide)).trans <| (V2_of m (outs m) c main_v0_1 (by decide)).trans (V1_v0_1 m c)
theorem V3_v0_2 (c : Dev nD) : V3 m (outs m) c main_v0_2 = (dat0 (Vt0 m) c).arrAt 6 cfg0.N :=
  (V3_of m (outs m) c main_v0_2 (by decide)).trans <| (V2_of m (outs m) c main_v0_2 (by decide)).trans (V1_v0_2 m c)
theorem V3_v0_3 (c : Dev nD) : V3 m (outs m) c main_v0_3 = (dat0 (Vt0 m) c).arrAt 7 cfg0.N :=
  (V3_of m (outs m) c main_v0_3 (by decide)).trans <| (V2_of m (outs m) c main_v0_3 (by decide)).trans (V1_v0_3 m c)
theorem V3_v3 (c : Dev nD) : V3 m (outs m) c main_v3 = V2 m (outs m) c main_v3 := V3_of m (outs m) c main_v3 (by decide)
theorem V3_v4 (c : Dev nD) : V3 m (outs m) c main_v4 = (dat1 (Vt2 m) c).arrAt 2 cfg1.N := by
  rw [V3, Function.update_self]
  exact o3_arr m c 2
/-- Region 1 finds h where region 0 left it and eps' where the host operations left it. -/
theorem Vt2_v0_3 (c : Dev nD) : Vt2 m c main_v0_3 = (dat0 (Vt0 m) c).arrAt 7 cfg0.N :=
  (V2_of m (outsA m) c main_v0_3 (by decide)).trans (V1_v0_3 m c)
theorem Vt2_v3 (c : Dev nD) : Vt2 m c main_v3 = V2 m (outs m) c main_v3 := rfl

/-! ## The regions as segments -/

/-- At region 0's exit each of its arrays holds, in `V1`, what the pipeline leaves in it: an input as entered (no
    write-back touches it, and region 0 may change none of the arguments), an output the fold of its write-backs. -/
private theorem hF0 (c : Dev nD) : ∀ w : Fin cfg0.W, (dat0 (Vt0 m) c).arrAt w cfg0.N = V1 m (outs m) c (Pipeline.arrRef spec0 w)
  | 0 => ((dat0 (Vt0 m) c).arrAt_in 0 rfl _).trans <| (A_eq0 (Vt0 m) c 0).trans (V1_of m (outs m) c main_arg1 (by decide)).symm
  | 1 => ((dat0 (Vt0 m) c).arrAt_in 1 rfl _).trans <| (A_eq0 (Vt0 m) c 1).trans (V1_of m (outs m) c main_arg0 (by decide)).symm
  | 2 => ((dat0 (Vt0 m) c).arrAt_in 2 rfl _).trans <| (A_eq0 (Vt0 m) c 2).trans (V1_of m (outs m) c main_arg2 (by decide)).symm
  | 3 => ((dat0 (Vt0 m) c).arrAt_in 3 rfl _).trans <| (A_eq0 (Vt0 m) c 3).trans (V1_of m (outs m) c main_arg3 (by decide)).symm
  | 4 => (V1_v0_0 m c).symm
  | 5 => (V1_v0_1 m c).symm
  | 6 => (V1_v0_2 m c).symm
  | 7 => (V1_v0_3 m c).symm
  | ⟨_ + 8, h⟩ => absurd h (Nat.not_lt.2 (Nat.le_add_left _ _))
/-- Off region 0's arrays `V1` is the launch memory: the four references it updates are arrays of the region. -/
private theorem hrest0 (c : Dev nD) (b : Ref sig .tc) (hb : b ∉ Finset.univ.image (Pipeline.arrRef spec0)) :
    V1 m (outs m) c b = V0 m c b := by
  refine V1_of m (outs m) c b fun hmem => hb ?_
  simp only [List.mem_cons, List.not_mem_nil, or_false] at hmem
  rcases hmem with rfl | rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩
  · exact Finset.mem_image.mpr ⟨7, Finset.mem_univ _, rfl⟩

/-- At region 1's exit: h and eps' as entered, e' the fold of its write-backs. -/
private theorem hF1 (c : Dev nD) : ∀ w : Fin cfg1.W, (dat1 (Vt2 m) c).arrAt w cfg1.N = V3 m (outs m) c (Pipeline.arrRef spec1 w)
  | 0 => ((dat1 (Vt2 m) c).arrAt_in 0 rfl _).trans <| (A_eq1 (Vt2 m) c 0).trans (V3_of m (outs m) c main_v0_3 (by decide)).symm
  | 1 => ((dat1 (Vt2 m) c).arrAt_in 1 rfl _).trans <| (A_eq1 (Vt2 m) c 1).trans (V3_of m (outs m) c main_v3 (by decide)).symm
  | 2 => (V3_v4 m c).symm
  | ⟨_ + 3, h⟩ => absurd h (Nat.not_lt.2 (Nat.le_add_left _ _))
/-- Off region 1's arrays `V3` is `V2`: the one reference it updates is the region's output array. -/
private theorem hrest1 (c : Dev nD) (b : Ref sig .tc) (hb : b ∉ Finset.univ.image (Pipeline.arrRef spec1)) :
    V3 m (outs m) c b = V2 m (outs m) c b := by
  refine V3_of m (outs m) c b fun hmem => hb ?_
  simp only [List.mem_cons, List.not_mem_nil, or_false] at hmem
  subst hmem
  exact Finset.mem_image.mpr ⟨2, Finset.mem_univ _, rfl⟩

set_option backward.isDefEq.respectTransparency.types false in
/-- Region 0 over the thread state: entered with every unscoped buffer at the launch memory, left with them at `V1`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt0 m c)
  hentry c := by
    -- the held buffers split into the region's arrays and the rest; the register and the dues ride over
    rw [Pipeline.ownSems0_none]
    have hsplit := Pipeline.arrays_of_unscopedBufs (p := 0) (pcfgs (F := F)) adm (pdats m) launch0.win launch0.arr_whole c
      ((pdats m 0 c).share_full fun _ => rfl) (Vt0 m c) fun _ => rfl
    rw [Pipeline.unscopedBufs_held] at hsplit
    iintro ⟨⟨Hheld, Hreg, Hdue⟩, -, -⟩
    ihave Hparts := hsplit $$ Hheld
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the class's invariant first, then the region's own first-point invariant from it
    refine BIBase.Entails.trans ?_ (hin0 (Vt0 m) c)
    unfold Pipeline.ΦA
    iintro ⟨Hreg, -, Hsc⟩
    isplitl [Hsc]; · iexact Hsc
    iexact Hreg
  hout c := by
    rw [Pipeline.ownSems0_none]
    refine BIBase.Entails.trans (hout0 (Vt0 m) c) ?_
    unfold Pipeline.ΦA
    iintro ⟨Hsc, Hreg⟩
    isplitl [Hreg]; · iexact Hreg
    isplitr; · iempintro
    iexact Hsc
  hexit c := by
    -- the arrays at their last contents and the rest as entered are the unscoped buffers at `V1`
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt0 m c) (fun b => V1 m (outs m) c b) ((pdats m 0 c).arrAt · cfg0.N) (hF0 m c) (hrest0 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩
    iexists W; iexact Hdue
theorem reg0_pre (c : Dev nD) : iprop(StableHlo.held (c : Thread nD τ) (Pipeline.ucRefs τ sig) (V0 m c) ∗ E (F := F) 0 c) ⊢ (reg0 m).pre c := .rfl
theorem reg0_post (c : Dev nD) : (reg0 m).post c ⊢ iprop(StableHlo.held (c : Thread nD τ) (Pipeline.ucRefs τ sig) (V1 m (outs m) c) ∗ E (F := F) 1 c) := .rfl

set_option backward.isDefEq.respectTransparency.types false in
/-- Region 1: entered at `V2`, left at `V3`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hheld, Hreg, Hdue⟩, -, -⟩
    ihave Hparts := hsplit $$ Hheld
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the invariant is the class's at every point
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩
    iexists W; iexact Hdue
theorem reg1_pre (c : Dev nD) : iprop(StableHlo.held (c : Thread nD τ) (Pipeline.ucRefs τ sig) (V2 m (outs m) c) ∗ E (F := F) 1 c) ⊢ (reg1 m).pre c := .rfl
theorem reg1_post (c : Dev nD) : (reg1 m).post c ⊢ iprop(StableHlo.held (c : Thread nD τ) (Pipeline.ucRefs τ sig) (V3 m (outs m) c) ∗ E (F := F) 2 c) := .rfl

/-! ## The launch -/

/-- The launch element is the pipeline library's own at every staging cell, and no core is dealt a ghost resource. -/
private theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu
  imodintro
  isplitl [Hu]; · iexact Hu
  iempintro

/-- What rides beside the buffers is made on every core from what the launch deals it: the generator register at its
    launch state, the core owing nothing to nobody. -/
private theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) :=
  Pipeline.initEach L lv fun c => by
    iintro ⟨⟨-, Hdue, -, Hreg, -⟩, -⟩
    imodintro
    isplitl [Hreg]; · iexists _; iexact Hreg
    iexists ∅; iexact Hdue

/-- At the end the core owes nothing: the register is dropped. -/
private theorem hE2 (c : Dev nD) : E (F := F) 2 c ⊢ (iprop(∃ W, owes (c : Thread nD τ) (0 : CellTallies nD τ sig Unit) W) : sProp 𝕄) := by
  iintro ⟨-, Hdue⟩
  iexact Hdue

set_option backward.isDefEq.respectTransparency.types false in
/-- THE FRAME: every weakly fair execution of @main terminates, nothing faulting, the arguments ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ E (hE0 ρ) hE2
    (reg0 m) (reg0_pre m) (reg0_post m) (reg1 m) (reg1_pre m) (reg1_post m)

set_option backward.isDefEq.respectTransparency.types false in
/-- THE RUN, every unscoped buffer named: the final memory holds each at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V3 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    0 (fun _ _ => rfl) (fun _ => (BI.emp : sProp 𝕄))
    (initOf (Pipeline.cells cfgs cellOf_inj) (Pipeline.launchToks cfgs cellOf_inj)) hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V3 m (outs m) c))
    (hch := fun c => ⟨reg0_pre m c, reg0_post m c, reg1_pre m c, (reg1_post m c).trans (sep_mono .rfl (hE2 c))⟩)
    (hinit := ?_)
    (QY := fun c s => ∀ b ∈ Pipeline.ucRefs τ sig, s.mem (((c : Thread nD τ)).1, b) = V3 m (outs m) c b)
    (hfin := fun c s' => ?_) (hQ := fun _ h => h)
  · -- every core makes its first thread state from what the launch deals it: the buffers at the launch memory, the rest
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Hdue, -, Hreg, -⟩, -⟩
    imodintro
    isplitl [Hheld]; · iexact Hheld
    isplitl [Hreg]; · iexists _; iexact Hreg
    iexists ∅; iexact Hdue
  · -- the last thread state read against the final memory: each held buffer is there at its valuation
    unfold StableHlo.held
    iintro ⟨Hheld, HSI⟩
    imodintro
    iapply (pointsTo_read_all (Pipeline.ucRefs τ sig) (fun b => (((c : Thread nD τ)).1, b)) (V3 m (outs m) c) s')
    isplitl [Hheld] <;> iassumption

end Cert.KernelIdeal.Hand

end
-- ==== Proof.K.R0Data.lean ====
/-
  Region 0 (the blocked product W·x with the neuron update fused at the last reduction step), its proof data.
  A grid point is (i, k), position t = 4·i + k. The scratch accumulator after position t holds
  acc(t) = (0 if k = 0, else acc(t-1)) + W[i-th row block, k-th column block] · x[k-th row block];
  at k = 3 the four outputs' blocks are the update's pointwise functions of acc(t) and of the u and r blocks.
-/
import proofs.«155521_j41248865910902_1_alg».proof.Proof.Gen.Kernel.Launch
import proofs.«155521_j41248865910902_1_alg».proof.Proof.Gen.Kernel.Skeleton
import proofs.«155521_j41248865910902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: the W block, the x block, the u block, the r block. -/
abbrev wblk (c : Dev nD) (t : Fin cfg0.N) : Vec F S1024x1024 .f32 := iblk0 V c 0 t
abbrev xblk (c : Dev nD) (t : Fin cfg0.N) : Vec F S1024x256 .f32 := iblk0 V c 1 t
abbrev ublk (c : Dev nD) (t : Fin cfg0.N) : Vec F S1024x256 .f32 := iblk0 V c 2 t
abbrev rblk (c : Dev nD) (t : Fin cfg0.N) : Vec F S1024x256 .f32 := iblk0 V c 3 t

/-- The accumulator after the body at position `n`: restarted from zero where k = 0 (n ≡ 0 mod 4), else continued
    from the position before; then the block product added. -/
def accAt (c : Dev nD) : (n : ℕ) → n < cfg0.N → Vec F S1024x256 .f32
  | 0, hn => k0_pay2 (wblk V c ⟨0, hn⟩) (xblk V c ⟨0, hn⟩) k0_pay1
  | n + 1, hn => k0_pay2 (wblk V c ⟨n + 1, hn⟩) (xblk V c ⟨n + 1, hn⟩)
      (if (n + 1) % 4 = 0 then k0_pay1 else accAt c n (Nat.lt_of_succ_lt hn))

theorem accAt_reset (c : Dev nD) (t : Fin cfg0.N) (h : t.val % 4 = 0) :
    accAt V c t.val t.isLt = k0_pay2 (wblk V c t) (xblk V c t) k0_pay1 := by
  obtain ⟨n, hn⟩ := t
  cases n with
  | zero => rfl
  | succ n => simp only [accAt]; rw [if_pos h]

theorem accAt_step (c : Dev nD) (t : Fin cfg0.N) (h : ¬ t.val % 4 = 0) :
    accAt V c t.val t.isLt = k0_pay2 (wblk V c t) (xblk V c t)
      (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The body's two branches, decided over the grid -/

/-- The first branch (the accumulator's restart) is taken where k = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (the update and the four stores) is taken where k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle; the output windows are idle, and not written back, exactly where k ≠ 3. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_out : ∀ t : Fin cfg0.N, ¬cond0_1 (grid0.coords t) → cfg0.idle 4 (grid0.coords t) = true ∧ cfg0.idle 5 (grid0.coords t) = true ∧ cfg0.idle 6 (grid0.coords t) = true ∧ cfg0.idle 7 (grid0.coords t) = true := by decide +kernel
theorem noFlush0_out : ∀ t : Fin cfg0.N, ¬cond0_1 (grid0.coords t) → (cfg0.win 4).flush t = false ∧ (cfg0.win 5).flush t = false ∧ (cfg0.win 6).flush t = false ∧ (cfg0.win 7).flush t = false := by decide +kernel
theorem liveAt0_out : ∀ t : Fin cfg0.N, cond0_1 (grid0.coords t) → cfg0.idle 4 (grid0.coords t) = false ∧ cfg0.idle 5 (grid0.coords t) = false ∧ cfg0.idle 6 (grid0.coords t) = false ∧ cfg0.idle 7 (grid0.coords t) = false := by decide +kernel

/-- The scratch accumulator as a memref. -/
abbrev scM : Memref sig .tc .vmem S1024x256 .f32 := Memref.whole cc0_scratch0

/-- The core's scoped buffers that region 0 neither stages nor uses (region 1's staging buffers), each at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM fullShare d) ∗ restOthers c) ∗ (∃ r, prngReg c r)) := by
  unfold Pipeline.ΦA restOthers; rw [scopedRest0_eq]; simp only [scM, owns_whole]; rfl

/-- The region invariant before position `n`: before the first point the class's (the scratch at anything);
    afterwards the scratch at the accumulator the position before left. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restOthers c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restOthers c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restOthers c) ∗ (∃ r, prngReg c r)) := by
  cases n with
  | zero => exact absurd rfl hz
  | succ n => rfl

/-- The proof data of pipeline 0 on core `c`: the arrays as the region finds them; after the body each input's buffer
    at its block; each output's at the update's function of the accumulator and the u, r blocks (consulted only at
    k = 3, where the body stores them and the pipeline writes them back); the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay8 (accAt V c t.val t.isLt) (ublk V c t) (rblk V c t)
    | ⟨5, _⟩ => k0_pay6 (accAt V c t.val t.isLt) (ublk V c t) (rblk V c t)
    | ⟨6, _⟩ => k0_pay7 (accAt V c t.val t.isLt) (ublk V c t) (rblk V c t)
    | ⟨7, _⟩ => k0_pay9 (accAt V c t.val t.isLt) (ublk V c t) (rblk V c t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay8 (accAt V c t.val t.isLt) (ublk V c t) (rblk V c t) := by dsimp only [dat0]
theorem after0_5 (c : Dev nD) (t : Fin cfg0.N) : (dat0 V c).after 5 t = k0_pay6 (accAt V c t.val t.isLt) (ublk V c t) (rblk V c t) := by dsimp only [dat0]
theorem after0_6 (c : Dev nD) (t : Fin cfg0.N) : (dat0 V c).after 6 t = k0_pay7 (accAt V c t.val t.isLt) (ublk V c t) (rblk V c t) := by dsimp only [dat0]
theorem after0_7 (c : Dev nD) (t : Fin cfg0.N) : (dat0 V c).after 7 t = k0_pay9 (accAt V c t.val t.isLt) (ublk V c t) (rblk V c t) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Region0

end Cert.Kernel.Hand

end
-- ==== Proof.K.R0Runs.lean ====
/-
  The body of region 0 run once in each of its three control cases (k = 0; k = 1, 2; k = 3), on any whole staging
  memrefs: the inputs' buffers are read and left as they were; the accumulator ends at the block product added to
  zero (k = 0) or to what it held; at k ≠ 3 the outputs' buffers are not touched; at k = 3 they end at the update's
  functions of the new accumulator and the u and r blocks.
-/
import proofs.«155521_j41248865910902_1_alg».proof.Proof.K.R0Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, as the constant function (both shapes have rank 2). -/
private theorem hz256 : (![0, 0] : Fin S1024x256.rank → ℕ) = fun _ => 0 := by
  funext a; fin_cases a <;> rfl
private theorem hz1024 : (![0, 0] : Fin S1024x1024.rank → ℕ) = fun _ => 0 := by
  funext a; fin_cases a <;> rfl

/-- The whole-buffer rectangle of the body's 1024×256 accesses. -/
private abbrev rAll : Rect S1024x256 := Rect.unit (s := S1024x256) ![0, 0] S1024x256.size inb_S1024x256_S1024x256_0_0

/-- Writes whose last one goes through the whole-buffer rectangle cover the buffer, -/
private theorem cover_last (w : rAll.shape.Idx → Elt F .f32) (L : List (View.Piece (Elt F) S1024x256 .f32)) (y : S1024x256.Idx) :
    ∃ p ∈ ((⟨rAll, w⟩ : View.Piece (Elt F) S1024x256 .f32) :: L), y ∈ p.1.set :=
  ⟨⟨rAll, w⟩, List.mem_cons_self, View.mem_set_unit_zero hz256 inb_S1024x256_S1024x256_0_0 y⟩

/-- so what they leave reads as the last write's payload, whatever the earlier writes and the prior contents were. -/
private theorem read_last {κ : Kind} {sp : Space} (v : View sig κ sp S1024x256 .f32) (f : v.ty.Contents (Elt F))
    (w : rAll.shape.Idx → Elt F .f32) (L : List (View.Piece (Elt F) S1024x256 .f32)) :
    v.read (Elt F) (v.writes (Elt F) f ((⟨rAll, w⟩ : View.Piece (Elt F) S1024x256 .f32) :: L)) = w := by
  rw [View.read_writes_eq_canon _ _ _ (cover_last _ _), View.canon_cons_unit_zero (S := S1024x256) hz256]

set_option maxHeartbeats 1000000 in
/-- k = 0: the accumulator restarts. -/
theorem run0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .f32) (x1 x2 x3 xi4 xi5 xi6 xi7 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare (k0_pay2 x0 x1 k0_pay1)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  -- the accumulator: zero stored, read back, and the sum stored over it
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

set_option maxHeartbeats 1000000 in
/-- k = 1, 2: the accumulator continues. -/
theorem run0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .f32) (x1 x2 x3 xi4 xi5 xi6 xi7 xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1
  obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  -- the accumulator: the sum stored over what it held
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

set_option maxHeartbeats 1000000 in
/-- k = 3: the accumulator continues, then the update is computed from it and stored into the four outputs. -/
theorem run0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .f32) (x1 x2 x3 xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay8 (k0_pay2 x0 x1 xs) x2 x3) ∗ owns (c : Thread nD τ) arg7 fullShare (k0_pay6 (k0_pay2 x0 x1 xs) x2 x3) ∗ owns (c : Thread nD τ) arg8 fullShare (k0_pay7 (k0_pay2 x0 x1 xs) x2 x3) ∗ owns (c : Thread nD τ) arg9 fullShare (k0_pay9 (k0_pay2 x0 x1 xs) x2 x3) ∗ owns (c : Thread nD τ) arg10 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
  obtain rfl := harg2.eq_unread hf0; obtain rfl := harg3.eq_unread hf1
  obtain rfl := harg4.eq_unread hf2; obtain rfl := harg5.eq_unread hf3
  obtain rfl := harg10.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  -- each output: one store of the update's function of the accumulator read back after its store, and of the u, r blocks
  isplitl [H4]
  · iexists _; isplitr
    swap; · iexact H4
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H5]
  · iexists _; isplitr
    swap; · iexact H5
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H6]
  · iexists _; isplitr
    swap; · iexact H6
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  isplitl [H7]
  · iexists _; isplitr
    swap; · iexact H7
    ipureintro
    sl_unfold_run_names
    rw [read_last]
    simp only [View.readAt_eq_ld, harg2.read_unread, harg3.read_unread, harg4.read_unread, harg5.read_unread,
      harg10.read_unread, View.ld_unit_zero (S := S1024x256) hz256, View.ld_unit_zero (S := S1024x1024) hz1024,
      View.readCov_unit_zero (S := S1024x256) _ hz256]
  -- the accumulator: the sum stored over what it held
  iexists _; isplitr
  swap; · iexact HS
  ipureintro
  sl_unfold_run_names
  rw [read_last]
  simp only [View.readAt_eq_ld, harg2.read_unread, harg3.read_unread, harg4.read_unread, harg5.read_unread,
    harg10.read_unread, View.ld_unit_zero (S := S1024x256) hz256, View.ld_unit_zero (S := S1024x1024) hz1024,
    View.readCov_unit_zero (S := S1024x256) _ hz256]

end Cert.Kernel.Hand

end
-- ==== Proof.K.R0Oblig.lean ====
/-
  Region 0's body obligation: at every grid point the body, handed the invariant (the accumulator at what the point
  before left), and every window's current staging buffer at what it then holds, leaves the invariant at the next
  point and every buffer at the proof data's contents — by the point's control case.
-/
import proofs.«155521_j41248865910902_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input's current staging buffer holds its block at every point, fetched there or not. -/
theorem before0_0 (c : Dev nD) (t : Fin cfg0.N) (d) : (dat0 V c).before 0 t d = iblk0 V c 0 t := by
  -- an input that the body leaves in place holds, at every point, what a fetch there would put in the buffer;
  -- the window is uncut, so that is the array's block at the point
  have hkeep : ∀ s, (cfg0.win 0).cut (cfg0.grid.coords s) ((dat0 V c).after 0 s) = (dat0 V c).blockOf 0 s := by
    intro s; rw [after0_0]; unfold Dat.blockOf iblk0; rw [A_eq0]
  rw [(dat0 V c).before_in_eq_fetched 0 rfl (fun _ => rfl) (fun _ _ _ => rfl) hkeep t d]
  unfold Dat.fetched Dat.blockOf iblk0; rw [A_eq0]; rfl
theorem before0_1 (c : Dev nD) (t : Fin cfg0.N) (d) : (dat0 V c).before 1 t d = iblk0 V c 1 t := by
  -- an input that the body leaves in place holds, at every point, what a fetch there would put in the buffer;
  -- the window is uncut, so that is the array's block at the point
  have hkeep : ∀ s, (cfg0.win 1).cut (cfg0.grid.coords s) ((dat0 V c).after 1 s) = (dat0 V c).blockOf 1 s := by
    intro s; rw [after0_1]; unfold Dat.blockOf iblk0; rw [A_eq0]
  rw [(dat0 V c).before_in_eq_fetched 1 rfl (fun _ => rfl) (fun _ _ _ => rfl) hkeep t d]
  unfold Dat.fetched Dat.blockOf iblk0; rw [A_eq0]; rfl
theorem before0_2 (c : Dev nD) (t : Fin cfg0.N) (d) : (dat0 V c).before 2 t d = iblk0 V c 2 t := by
  -- an input that the body leaves in place holds, at every point, what a fetch there would put in the buffer;
  -- the window is uncut, so that is the array's block at the point
  have hkeep : ∀ s, (cfg0.win 2).cut (cfg0.grid.coords s) ((dat0 V c).after 2 s) = (dat0 V c).blockOf 2 s := by
    intro s; rw [after0_2]; unfold Dat.blockOf iblk0; rw [A_eq0]
  rw [(dat0 V c).before_in_eq_fetched 2 rfl (fun _ => rfl) (fun _ _ _ => rfl) hkeep t d]
  unfold Dat.fetched Dat.blockOf iblk0; rw [A_eq0]; rfl
theorem before0_3 (c : Dev nD) (t : Fin cfg0.N) (d) : (dat0 V c).before 3 t d = iblk0 V c 3 t := by
  -- an input that the body leaves in place holds, at every point, what a fetch there would put in the buffer;
  -- the window is uncut, so that is the array's block at the point
  have hkeep : ∀ s, (cfg0.win 3).cut (cfg0.grid.coords s) ((dat0 V c).after 3 s) = (dat0 V c).blockOf 3 s := by
    intro s; rw [after0_3]; unfold Dat.blockOf iblk0; rw [A_eq0]
  rw [(dat0 V c).before_in_eq_fetched 3 rfl (fun _ => rfl) (fun _ _ _ => rfl) hkeep t d]
  unfold Dat.fetched Dat.blockOf iblk0; rw [A_eq0]; rfl

/-! ## What the body leaves in each window's buffer, by the point's control case -/

/-- An input's buffer is left at its block at every point (an input is never idle). -/
theorem leaves0_0 (c : Dev nD) (t : Fin cfg0.N) :
    (dat0 V c).leavesExact 0 t = owns (c : Thread nD τ) (st0_0 t) fullShare (iblk0 V c 0 t) := by
  have h : (dat0 V c).leavesExact 0 t = owns (c : Thread nD τ) (st0_0 t) fullShare ((dat0 V c).after 0 t) := by
    unfold Dat.leavesExact; rw [liveAt0_0 t]
  rw [h, after0_0]
theorem leaves0_1 (c : Dev nD) (t : Fin cfg0.N) :
    (dat0 V c).leavesExact 1 t = owns (c : Thread nD τ) (st0_1 t) fullShare (iblk0 V c 1 t) := by
  have h : (dat0 V c).leavesExact 1 t = owns (c : Thread nD τ) (st0_1 t) fullShare ((dat0 V c).after 1 t) := by
    unfold Dat.leavesExact; rw [liveAt0_1 t]
  rw [h, after0_1]
theorem leaves0_2 (c : Dev nD) (t : Fin cfg0.N) :
    (dat0 V c).leavesExact 2 t = owns (c : Thread nD τ) (st0_2 t) fullShare (iblk0 V c 2 t) := by
  have h : (dat0 V c).leavesExact 2 t = owns (c : Thread nD τ) (st0_2 t) fullShare ((dat0 V c).after 2 t) := by
    unfold Dat.leavesExact; rw [liveAt0_2 t]
  rw [h, after0_2]
theorem leaves0_3 (c : Dev nD) (t : Fin cfg0.N) :
    (dat0 V c).leavesExact 3 t = owns (c : Thread nD τ) (st0_3 t) fullShare (iblk0 V c 3 t) := by
  have h : (dat0 V c).leavesExact 3 t = owns (c : Thread nD τ) (st0_3 t) fullShare ((dat0 V c).after 3 t) := by
    unfold Dat.leavesExact; rw [liveAt0_3 t]
  rw [h, after0_3]

/-- Where k ≠ 3 an output's window is idle and not written back: its buffer comes back at what it held. -/
theorem leaves0_4_idle (c : Dev nD) (t : Fin cfg0.N) (h : ¬cond0_1 (grid0.coords t)) :
    (dat0 V c).leavesExact 4 t = iprop(∃ d, owns (c : Thread nD τ) (st0_4 t) fullShare ((dat0 V c).before 4 t d)) :=
  Dat.leavesExact_idle (dat0 V c) 4 t (idleAt0_out t h).1 (noFlush0_out t h).1
theorem leaves0_5_idle (c : Dev nD) (t : Fin cfg0.N) (h : ¬cond0_1 (grid0.coords t)) :
    (dat0 V c).leavesExact 5 t = iprop(∃ d, owns (c : Thread nD τ) (st0_5 t) fullShare ((dat0 V c).before 5 t d)) :=
  Dat.leavesExact_idle (dat0 V c) 5 t (idleAt0_out t h).2.1 (noFlush0_out t h).2.1
theorem leaves0_6_idle (c : Dev nD) (t : Fin cfg0.N) (h : ¬cond0_1 (grid0.coords t)) :
    (dat0 V c).leavesExact 6 t = iprop(∃ d, owns (c : Thread nD τ) (st0_6 t) fullShare ((dat0 V c).before 6 t d)) :=
  Dat.leavesExact_idle (dat0 V c) 6 t (idleAt0_out t h).2.2.1 (noFlush0_out t h).2.2.1
theorem leaves0_7_idle (c : Dev nD) (t : Fin cfg0.N) (h : ¬cond0_1 (grid0.coords t)) :
    (dat0 V c).leavesExact 7 t = iprop(∃ d, owns (c : Thread nD τ) (st0_7 t) fullShare ((dat0 V c).before 7 t d)) :=
  Dat.leavesExact_idle (dat0 V c) 7 t (idleAt0_out t h).2.2.2 (noFlush0_out t h).2.2.2

/-- Where k = 3 an output's buffer is left at the update's function of the accumulator and the u and r blocks. -/
theorem leaves0_4_live (c : Dev nD) (t : Fin cfg0.N) (h : cond0_1 (grid0.coords t)) :
    (dat0 V c).leavesExact 4 t
      = owns (c : Thread nD τ) (st0_4 t) fullShare (k0_pay8 (accAt V c t.val t.isLt) (ublk V c t) (rblk V c t)) := by
  have h' : (dat0 V c).leavesExact 4 t = owns (c : Thread nD τ) (st0_4 t) fullShare ((dat0 V c).after 4 t) := by
    unfold Dat.leavesExact; rw [(liveAt0_out t h).1]
  rw [h', after0_4]
theorem leaves0_5_live (c : Dev nD) (t : Fin cfg0.N) (h : cond0_1 (grid0.coords t)) :
    (dat0 V c).leavesExact 5 t
      = owns (c : Thread nD τ) (st0_5 t) fullShare (k0_pay6 (accAt V c t.val t.isLt) (ublk V c t) (rblk V c t)) := by
  have h' : (dat0 V c).leavesExact 5 t = owns (c : Thread nD τ) (st0_5 t) fullShare ((dat0 V c).after 5 t) := by
    unfold Dat.leavesExact; rw [(liveAt0_out t h).2.1]
  rw [h', after0_5]
theorem leaves0_6_live (c : Dev nD) (t : Fin cfg0.N) (h : cond0_1 (grid0.coords t)) :
    (dat0 V c).leavesExact 6 t
      = owns (c : Thread nD τ) (st0_6 t) fullShare (k0_pay7 (accAt V c t.val t.isLt) (ublk V c t) (rblk V c t)) := by
  have h' : (dat0 V c).leavesExact 6 t = owns (c : Thread nD τ) (st0_6 t) fullShare ((dat0 V c).after 6 t) := by
    unfold Dat.leavesExact; rw [(liveAt0_out t h).2.2.1]
  rw [h', after0_6]
theorem leaves0_7_live (c : Dev nD) (t : Fin cfg0.N) (h : cond0_1 (grid0.coords t)) :
    (dat0 V c).leavesExact 7 t
      = owns (c : Thread nD τ) (st0_7 t) fullShare (k0_pay9 (accAt V c t.val t.isLt) (ublk V c t) (rblk V c t)) := by
  have h' : (dat0 V c).leavesExact 7 t = owns (c : Thread nD τ) (st0_7 t) fullShare ((dat0 V c).after 7 t) := by
    unfold Dat.leavesExact; rw [(liveAt0_out t h).2.2.2]
  rw [h', after0_7]

/-- The invariant before any position gives the scratch at some contents, the other scoped buffers and the generator
    register: before the first point it is exactly that; afterwards the accumulator's named contents are forgotten. -/
theorem PhiS_forget (c : Dev nD) (n : ℕ) (h : n ≤ cfg0.N) :
    PhiS V c n h ⊢ iprop(iprop((∃ d, owns (c : Thread nD τ) scM fullShare d) ∗ restOthers c) ∗ (∃ r, prngReg c r)) := by
  cases n with
  | zero => rw [PhiS_zero V c 0 h rfl, PhiA0_eq]
  | succ n =>
    rw [PhiS_succ]
    iintro ⟨⟨HS, Hr⟩, Hg⟩
    isplitl [HS Hr]
    · isplitl [HS]
      · iexists _; iexact HS
      · iexact Hr
    · iexact Hg

/-! ## The body obligation, at a generic point -/

/-- What the body is called with at point `t`: the invariant, what the core owes, and every window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the invariant at the next point, the same debts, every buffer at what the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks. The position's residue mod 4 says which control
    case the point is in. At k = 0 the invariant gives the scratch at some contents and the body restarts the
    accumulator; at k ≠ 0 it gives the scratch at the accumulator of the position before and the body continues it.
    At k ≠ 3 each output's buffer is handed back at what it held; at k = 3 each is stored whole with the update's
    function of the new accumulator. The other scoped buffers, the generator register and the debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ, PhiS_castSucc]
  rw [leaves0_0, leaves0_1, leaves0_2, leaves0_3]
  have hN : t.val < 16 := lt_of_lt_of_eq t.isLt (show cfg0.N = 16 from N_0)
  by_cases h0 : t.val % 4 = 0
  · -- k = 0: the accumulator restarts from zero, whatever the scratch held
    have h1 : ¬ t.val % 4 = 3 := by omega
    have hc0 : cond0_0 (grid0.coords t) := (hcond0_0 t).mpr h0
    have hc1 : ¬cond0_1 (grid0.coords t) := fun h => h1 ((hcond0_1 t).mp h)
    rw [leaves0_4_idle V c t hc1, leaves0_5_idle V c t hc1, leaves0_6_idle V c t hc1, leaves0_7_idle V c t hc1]
    rw [accAt_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨⟨HS, Hr⟩, Hg⟩ := (PhiS_forget V c _ _) $$ HΦ
    iapply (run0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
      (wblk V c t) (xblk V c t) (ublk V c t) (rblk V c t) ((dat0 V c).before 4 t d4) ((dat0 V c).before 5 t d5) ((dat0 V c).before 6 t d6) ((dat0 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]
        · iexact HS
        · iexact Hr
      · iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    iexists d7; iexact H7
  · have hz : t.val ≠ 0 := fun e => h0 (by rw [e])
    have hc0 : ¬cond0_0 (grid0.coords t) := fun h => h0 ((hcond0_0 t).mp h)
    rw [PhiS_pos V c _ _ hz, accAt_step V c t h0]
    by_cases h1 : t.val % 4 = 3
    · -- k = 3: the accumulator continues, and the four outputs are stored from it
      have hc1 : cond0_1 (grid0.coords t) := (hcond0_1 t).mpr h1
      rw [leaves0_4_live V c t hc1, leaves0_5_live V c t hc1, leaves0_6_live V c t hc1, leaves0_7_live V c t hc1]
      rw [accAt_step V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
        (wblk V c t) (xblk V c t) (ublk V c t) (rblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS Hr Hg]
      · isplitl [HS Hr]
        · isplitl [HS]
          · iexact HS
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- k = 1, 2: the accumulator continues; the outputs are not touched
      have hc1 : ¬cond0_1 (grid0.coords t) := fun h => h1 ((hcond0_1 t).mp h)
      rw [leaves0_4_idle V c t hc1, leaves0_5_idle V c t hc1, leaves0_6_idle V c t hc1, leaves0_7_idle V c t hc1]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hc0 hc1
        (wblk V c t) (xblk V c t) (ublk V c t) (rblk V c t) ((dat0 V c).before 4 t d4) ((dat0 V c).before 5 t d5) ((dat0 V c).before 6 t d6) ((dat0 V c).before 7 t d7) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hr Hg]
      · isplitl [HS Hr]
        · isplitl [HS]
          · iexact HS
          · iexact Hr
        · iexact Hg
      isplitl [Ho]; · iexact Ho
      isplitl [H0]; · iexact H0
      isplitl [H1]; · iexact H1
      isplitl [H2]; · iexact H2
      isplitl [H3]; · iexact H3
      isplitl [H4]; · iexists d4; iexact H4
      isplitl [H5]; · iexists d5; iexact H5
      isplitl [H6]; · iexists d6; iexact H6
      iexists d7; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [PhiA0_eq, show (dat0 V c).Φ (Fin.last cfg0.N)
      = PhiS V c (Fin.last cfg0.N).val (Nat.le_of_lt_succ (Fin.last cfg0.N).isLt) from rfl]
  exact PhiS_forget V c _ _

end Cert.Kernel.Hand

end
-- ==== Proof.K.R1Data.lean ====
/-
  Region 1 (e' = h·eps'ᵀ, one 1024 × 1024 block per grid point), its proof data: the block of e' at point (i, j) is
  the product of the i-th row block of h with the transpose of the j-th row block of eps'.
-/
import proofs.«155521_j41248865910902_1_alg».proof.Proof.Gen.Kernel.Launch
import proofs.«155521_j41248865910902_1_alg».proof.Proof.Gen.Kernel.Skeleton
import proofs.«155521_j41248865910902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The h block and the eps' block at a point, at their literal types. -/
abbrev hblk (c : Dev nD) (t : Fin cfg1.N) : Vec F S1024x256 .f32 := iblk1 V c 0 t
abbrev eblk (c : Dev nD) (t : Fin cfg1.N) : Vec F S1024x256 .f32 := iblk1 V c 1 t

/-- The proof data of pipeline 1 on core `c`: the arrays as the region finds them; after the body each input's buffer at
    its block and the output's at the block product; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (hblk V c t) (eblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (hblk V c t) (eblk V c t) := by dsimp only [dat1]

end Region1

end Cert.Kernel.Hand

end
-- ==== Proof.K.R1.lean ====
/-
  Region 1's body: one load of each input block, the product of the h block with the transposed eps' block,
  one store of the output block; and the body obligation it gives at every grid point.
-/
import proofs.«155521_j41248865910902_1_alg».proof.Proof.K.R1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not: unfetched, the
    block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's accesses: each staging buffer whole, through the unit rectangle at offset zero -/

abbrev rIn1 : Rect S1024x256 := Rect.unit (s := S1024x256) ![0, 0] S1024x256.size inb_S1024x256_S1024x256_0_0
abbrev rOut1 : Rect S1024x1024 := Rect.unit (s := S1024x1024) ![0, 0] S1024x1024.size inb_S1024x1024_S1024x1024_0_0

theorem zeros2 : (![0, 0] : Fin 2 → Nat) = fun _ => 0 := funext fun a => by fin_cases a <;> rfl

/-- The one store covers the output's staging buffer. -/
theorem cover1_2 (p : Vec F S1024x1024 .f32) (y : S1024x1024.Idx) :
    ∃ pc ∈ ([⟨rOut1, p⟩] : List (View.Piece (Elt F) S1024x1024 .f32)), y ∈ pc.1.set :=
  ⟨_, List.mem_singleton_self _, View.mem_set_unit_zero (S := S1024x1024) zeros2 inb_S1024x1024_S1024x1024_0_0 y⟩

/-! ## The body's triple -/

set_option maxHeartbeats 1000000 in
/-- The kernel on whole staging memrefs, the inputs' reading `x0`, `x1` and the output's anything, runs to the
    continuation with the inputs' as they were and the output's holding the product of `x0` with the transposed `x1`. -/
theorem sound_kernel1 (c : Dev nD) (E : Set ℕ) (i : grid1.Coords)
    (arg2 : Memref sig .tc .vmem S1024x256 .f32) (harg2 : arg2.IsWhole)
    (arg3 : Memref sig .tc .vmem S1024x256 .f32) (harg3 : arg3.IsWhole)
    (arg4 : Memref sig .tc .vmem S1024x1024 .f32) (harg4 : arg4.IsWhole)
    (x0 x1 : Vec F S1024x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__kernel_c i arg2 harg2 arg3 harg3 arg4 harg4) K := by
  simp only [cc1__kernel_c_eq_skeleton]; unfold cc1__kernel_c_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rw [View.canon_unit_zero (S := S1024x1024) zeros2 inb_S1024x1024_S1024x1024_0_0]
  exact congrArg₂ k1_pay1
    (View.ld_unit_zero (S := S1024x256) zeros2 inb_S1024x256_S1024x256_0_0 (View.read (Elt F) arg2.view f0))
    (View.ld_unit_zero (S := S1024x256) zeros2 inb_S1024x256_S1024x256_0_0 (View.read (Elt F) arg3.view f1))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: region 0, the four host operations that make eps' = 0.1·eps + inp, region 1.
  Between two items every unscoped buffer is held at a valuation: the launch memory; after region 0 its four
  result arrays at what the write-backs left; after the host operations their results; after region 1 the array e'.
-/
import proofs.«155521_j41248865910902_1_alg».proof.Proof.Gen.Kernel.Regions
import proofs.«155521_j41248865910902_1_alg».proof.Proof.K.R0Oblig
import proofs.«155521_j41248865910902_1_alg».proof.Proof.K.R1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 is entered from the launch memory. -/
abbrev Vt0 : (c : Dev nD) → (b : Ref sig .tc) → Buf (Elt F) ((c : Thread nD τ).loc b) := fun c b => V0 m c b

/-- What region 0 leaves in a buffer: its arrays at what the pipeline's write-backs leave, anything else as entered. -/
def o1 (r : Ref sig .tc) (c : Dev nD) : Buf (Elt F) ((c : Thread nD τ).loc r) :=
  Pipeline.withArrays spec0 c (V0 m c) (fun w => (dat0 (Vt0 m) c).arrAt w cfg0.N) (Proc.devRef .tc r)
/-- The first stage of the regions' unknowns: region 0's. -/
def outsA : Outs (F := F) := fun _ r c => o1 m r c
/-- Region 1 is entered from the contents after the host operations. -/
abbrev Vt2 : (c : Dev nD) → (b : Ref sig .tc) → Buf (Elt F) ((c : Thread nD τ).loc b) := fun c b => V2 m (outsA m) c b
/-- What region 1 leaves in a buffer. -/
def o3 (r : Ref sig .tc) (c : Dev nD) : Buf (Elt F) ((c : Thread nD τ).loc r) :=
  Pipeline.withArrays spec1 c (V2 m (outsA m) c) (fun w => (dat1 (Vt2 m) c).arrAt w cfg1.N) (Proc.devRef .tc r)
/-- What the regions leave: region 0's results after item 0, region 1's after item 2. -/
def outs : Outs (F := F) := fun J r c => if J = 3 then o3 m r c else o1 m r c

theorem V1_outs (c : Dev nD) : V1 m (outs m) c = V1 m (outsA m) c := rfl
theorem V2_outs (c : Dev nD) : V2 m (outs m) c = V2 m (outsA m) c := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt0 m) c
  | ⟨1, _⟩ => fun c => dat1 (Vt2 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The values of region 0's and region 1's arrays inside the valuations -/

/-- The four result references of region 0 are pairwise distinct buffers. -/
private theorem ne_01 : (Proc.devRef .tc main_v0_0 : DevRef τ sig) ≠ Proc.devRef .tc main_v0_1 := StableHlo.devRef_ne_of_ne (by decide)
private theorem ne_02 : (Proc.devRef .tc main_v0_0 : DevRef τ sig) ≠ Proc.devRef .tc main_v0_2 := StableHlo.devRef_ne_of_ne (by decide)
private theorem ne_03 : (Proc.devRef .tc main_v0_0 : DevRef τ sig) ≠ Proc.devRef .tc main_v0_3 := StableHlo.devRef_ne_of_ne (by decide)
private theorem ne_12 : (Proc.devRef .tc main_v0_1 : DevRef τ sig) ≠ Proc.devRef .tc main_v0_2 := StableHlo.devRef_ne_of_ne (by decide)
private theorem ne_13 : (Proc.devRef .tc main_v0_1 : DevRef τ sig) ≠ Proc.devRef .tc main_v0_3 := StableHlo.devRef_ne_of_ne (by decide)
private theorem ne_23 : (Proc.devRef .tc main_v0_2 : DevRef τ sig) ≠ Proc.devRef .tc main_v0_3 := StableHlo.devRef_ne_of_ne (by decide)

/-- Region 0's exit contents at one of its arrays is what the write-backs left there. -/
private theorem o1_arr (c : Dev nD) (w : Fin cfg0.W) :
    Pipeline.withArrays spec0 c (V0 m c) (fun w => (dat0 (Vt0 m) c).arrAt w cfg0.N) (Proc.devRef .tc (Pipeline.arrRef spec0 w))
      = (dat0 (Vt0 m) c).arrAt w cfg0.N :=
  Pipeline.withArrays_arr spec0 launch0.win.arr_inj c (V0 m c) (fun w => (dat0 (Vt0 m) c).arrAt w cfg0.N) w
/-- Region 1's exit contents at one of its arrays. -/
private theorem o3_arr (c : Dev nD) (w : Fin cfg1.W) :
    Pipeline.withArrays spec1 c (V2 m (outsA m) c) (fun w => (dat1 (Vt2 m) c).arrAt w cfg1.N) (Proc.devRef .tc (Pipeline.arrRef spec1 w))
      = (dat1 (Vt2 m) c).arrAt w cfg1.N :=
  Pipeline.withArrays_arr spec1 launch1.win.arr_inj c (V2 m (outsA m) c) (fun w => (dat1 (Vt2 m) c).arrAt w cfg1.N) w

theorem V1_v0_0 (c : Dev nD) : V1 m (outs m) c main_v0_0 = (dat0 (Vt0 m) c).arrAt 4 cfg0.N := by
  rw [V1, Function.update_of_ne ne_03, Function.update_of_ne ne_02, Function.update_of_ne ne_01, Function.update_self]
  exact o1_arr m c 4
theorem V1_v0_1 (c : Dev nD) : V1 m (outs m) c main_v0_1 = (dat0 (Vt0 m) c).arrAt 5 cfg0.N := by
  rw [V1, Function.update_of_ne ne_13, Function.update_of_ne ne_12, Function.update_self]
  exact o1_arr m c 5
theorem V1_v0_2 (c : Dev nD) : V1 m (outs m) c main_v0_2 = (dat0 (Vt0 m) c).arrAt 6 cfg0.N := by
  rw [V1, Function.update_of_ne ne_23, Function.update_self]
  exact o1_arr m c 6
theorem V1_v0_3 (c : Dev nD) : V1 m (outs m) c main_v0_3 = (dat0 (Vt0 m) c).arrAt 7 cfg0.N := by
  rw [V1, Function.update_self]
  exact o1_arr m c 7
/-- The host operations leave eps' = 0.1·eps + inp in their last result. -/
theorem V2_v3 (c : Dev nD) : V2 m (outs m) c main_v3 =
    addf (mulf (broadcastInDim S4096x256 ![] bcast_S_S4096x256 (constant (F := F) S_ .f32 0x3DCCCCCD#32)) (m ((c : Thread nD τ).loc main_arg5))) (m ((c : Thread nD τ).loc main_arg0)) := by
  show StableHlo.after hostOps1 _ (Proc.devRef .tc main_v3) = _
  after_results
  rw [V1_of m (outs m) c main_arg5 (by decide), V1_of m (outs m) c main_arg0 (by decide)]
theorem V3_v0_0 (c : Dev nD) : V3 m (outs m) c main_v0_0 = (dat0 (Vt0 m) c).arrAt 4 cfg0.N :=
  (V3_of m (outs m) c main_v0_0 (by decide)).trans <| (V2_of m (outs m) c main_v0_0 (by decide)).trans (V1_v0_0 m c)
theorem V3_v0_1 (c : Dev nD) : V3 m (outs m) c main_v0_1 = (dat0 (Vt0 m) c).arrAt 5 cfg0.N :=
  (V3_of m (outs m) c main_v0_1 (by decide)).trans <| (V2_of m (outs m) c main_v0_1 (by decide)).trans (V1_v0_1 m c)
theorem V3_v0_2 (c : Dev nD) : V3 m (outs m) c main_v0_2 = (dat0 (Vt0 m) c).arrAt 6 cfg0.N :=
  (V3_of m (outs m) c main_v0_2 (by decide)).trans <| (V2_of m (outs m) c main_v0_2 (by decide)).trans (V1_v0_2 m c)
theorem V3_v0_3 (c : Dev nD) : V3 m (outs m) c main_v0_3 = (dat0 (Vt0 m) c).arrAt 7 cfg0.N :=
  (V3_of m (outs m) c main_v0_3 (by decide)).trans <| (V2_of m (outs m) c main_v0_3 (by decide)).trans (V1_v0_3 m c)
theorem V3_v3 (c : Dev nD) : V3 m (outs m) c main_v3 = V2 m (outs m) c main_v3 := V3_of m (outs m) c main_v3 (by decide)
theorem V3_v4 (c : Dev nD) : V3 m (outs m) c main_v4 = (dat1 (Vt2 m) c).arrAt 2 cfg1.N := by
  rw [V3, Function.update_self]
  exact o3_arr m c 2
/-- Region 1 finds h where region 0 left it and eps' where the host operations left it. -/
theorem Vt2_v0_3 (c : Dev nD) : Vt2 m c main_v0_3 = (dat0 (Vt0 m) c).arrAt 7 cfg0.N :=
  (V2_of m (outsA m) c main_v0_3 (by decide)).trans (V1_v0_3 m c)
theorem Vt2_v3 (c : Dev nD) : Vt2 m c main_v3 = V2 m (outs m) c main_v3 := rfl

/-! ## The regions as segments -/

/-- At region 0's exit each of its arrays holds, in `V1`, what the pipeline leaves in it: an input as entered (no
    write-back touches it, and region 0 may change none of the arguments), an output the fold of its write-backs. -/
private theorem hF0 (c : Dev nD) : ∀ w : Fin cfg0.W, (dat0 (Vt0 m) c).arrAt w cfg0.N = V1 m (outs m) c (Pipeline.arrRef spec0 w)
  | 0 => ((dat0 (Vt0 m) c).arrAt_in 0 rfl _).trans <| (A_eq0 (Vt0 m) c 0).trans (V1_of m (outs m) c main_arg1 (by decide)).symm
  | 1 => ((dat0 (Vt0 m) c).arrAt_in 1 rfl _).trans <| (A_eq0 (Vt0 m) c 1).trans (V1_of m (outs m) c main_arg0 (by decide)).symm
  | 2 => ((dat0 (Vt0 m) c).arrAt_in 2 rfl _).trans <| (A_eq0 (Vt0 m) c 2).trans (V1_of m (outs m) c main_arg2 (by decide)).symm
  | 3 => ((dat0 (Vt0 m) c).arrAt_in 3 rfl _).trans <| (A_eq0 (Vt0 m) c 3).trans (V1_of m (outs m) c main_arg3 (by decide)).symm
  | 4 => (V1_v0_0 m c).symm
  | 5 => (V1_v0_1 m c).symm
  | 6 => (V1_v0_2 m c).symm
  | 7 => (V1_v0_3 m c).symm
  | ⟨_ + 8, h⟩ => absurd h (Nat.not_lt.2 (Nat.le_add_left _ _))
/-- Off region 0's arrays `V1` is the launch memory: the four references it updates are arrays of the region. -/
private theorem hrest0 (c : Dev nD) (b : Ref sig .tc) (hb : b ∉ Finset.univ.image (Pipeline.arrRef spec0)) :
    V1 m (outs m) c b = V0 m c b := by
  refine V1_of m (outs m) c b fun hmem => hb ?_
  simp only [List.mem_cons, List.not_mem_nil, or_false] at hmem
  rcases hmem with rfl | rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩
  · exact Finset.mem_image.mpr ⟨7, Finset.mem_univ _, rfl⟩

/-- At region 1's exit: h and eps' as entered, e' the fold of its write-backs. -/
private theorem hF1 (c : Dev nD) : ∀ w : Fin cfg1.W, (dat1 (Vt2 m) c).arrAt w cfg1.N = V3 m (outs m) c (Pipeline.arrRef spec1 w)
  | 0 => ((dat1 (Vt2 m) c).arrAt_in 0 rfl _).trans <| (A_eq1 (Vt2 m) c 0).trans (V3_of m (outs m) c main_v0_3 (by decide)).symm
  | 1 => ((dat1 (Vt2 m) c).arrAt_in 1 rfl _).trans <| (A_eq1 (Vt2 m) c 1).trans (V3_of m (outs m) c main_v3 (by decide)).symm
  | 2 => (V3_v4 m c).symm
  | ⟨_ + 3, h⟩ => absurd h (Nat.not_lt.2 (Nat.le_add_left _ _))
/-- Off region 1's arrays `V3` is `V2`: the one reference it updates is the region's output array. -/
private theorem hrest1 (c : Dev nD) (b : Ref sig .tc) (hb : b ∉ Finset.univ.image (Pipeline.arrRef spec1)) :
    V3 m (outs m) c b = V2 m (outs m) c b := by
  refine V3_of m (outs m) c b fun hmem => hb ?_
  simp only [List.mem_cons, List.not_mem_nil, or_false] at hmem
  subst hmem
  exact Finset.mem_image.mpr ⟨2, Finset.mem_univ _, rfl⟩

set_option backward.isDefEq.respectTransparency.types false in
/-- Region 0 over the thread state: entered with every unscoped buffer at the launch memory, left with them at `V1`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt0 m c)
  hentry c := by
    -- the held buffers split into the region's arrays and the rest; the register and the dues ride over
    rw [Pipeline.ownSems0_none]
    have hsplit := Pipeline.arrays_of_unscopedBufs (p := 0) (pcfgs (F := F)) adm (pdats m) launch0.win launch0.arr_whole c
      ((pdats m 0 c).share_full fun _ => rfl) (Vt0 m c) fun _ => rfl
    rw [Pipeline.unscopedBufs_held] at hsplit
    iintro ⟨⟨Hheld, Hreg, Hdue⟩, -, -⟩
    ihave Hparts := hsplit $$ Hheld
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the class's invariant first, then the region's own first-point invariant from it
    refine BIBase.Entails.trans ?_ (hin0 (Vt0 m) c)
    unfold Pipeline.ΦA
    iintro ⟨Hreg, -, Hsc⟩
    isplitl [Hsc]; · iexact Hsc
    iexact Hreg
  hout c := by
    rw [Pipeline.ownSems0_none]
    refine BIBase.Entails.trans (hout0 (Vt0 m) c) ?_
    unfold Pipeline.ΦA
    iintro ⟨Hsc, Hreg⟩
    isplitl [Hreg]; · iexact Hreg
    isplitr; · iempintro
    iexact Hsc
  hexit c := by
    -- the arrays at their last contents and the rest as entered are the unscoped buffers at `V1`
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt0 m c) (fun b => V1 m (outs m) c b) ((pdats m 0 c).arrAt · cfg0.N) (hF0 m c) (hrest0 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩
    iexists W; iexact Hdue
theorem reg0_pre (c : Dev nD) : iprop(StableHlo.held (c : Thread nD τ) (Pipeline.ucRefs τ sig) (V0 m c) ∗ E (F := F) 0 c) ⊢ (reg0 m).pre c := .rfl
theorem reg0_post (c : Dev nD) : (reg0 m).post c ⊢ iprop(StableHlo.held (c : Thread nD τ) (Pipeline.ucRefs τ sig) (V1 m (outs m) c) ∗ E (F := F) 1 c) := .rfl

set_option backward.isDefEq.respectTransparency.types false in
/-- Region 1: entered at `V2`, left at `V3`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hheld, Hreg, Hdue⟩, -, -⟩
    ihave Hparts := hsplit $$ Hheld
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hrest
  hin c := by
    -- the invariant is the class's at every point
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩
    iexists W; iexact Hdue
theorem reg1_pre (c : Dev nD) : iprop(StableHlo.held (c : Thread nD τ) (Pipeline.ucRefs τ sig) (V2 m (outs m) c) ∗ E (F := F) 1 c) ⊢ (reg1 m).pre c := .rfl
theorem reg1_post (c : Dev nD) : (reg1 m).post c ⊢ iprop(StableHlo.held (c : Thread nD τ) (Pipeline.ucRefs τ sig) (V3 m (outs m) c) ∗ E (F := F) 2 c) := .rfl

/-! ## The launch -/

/-- The launch element is the pipeline library's own at every staging cell, and no core is dealt a ghost resource. -/
private theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu
  imodintro
  isplitl [Hu]; · iexact Hu
  iempintro

/-- What rides beside the buffers is made on every core from what the launch deals it: the generator register at its
    launch state, the core owing nothing to nobody. -/
private theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) :=
  Pipeline.initEach L lv fun c => by
    iintro ⟨⟨-, Hdue, -, Hreg, -⟩, -⟩
    imodintro
    isplitl [Hreg]; · iexists _; iexact Hreg
    iexists ∅; iexact Hdue

/-- At the end the core owes nothing: the register is dropped. -/
private theorem hE2 (c : Dev nD) : E (F := F) 2 c ⊢ (iprop(∃ W, owes (c : Thread nD τ) (0 : CellTallies nD τ sig Unit) W) : sProp 𝕄) := by
  iintro ⟨-, Hdue⟩
  iexact Hdue

set_option backward.isDefEq.respectTransparency.types false in
/-- THE FRAME: every weakly fair execution of @main terminates, nothing faulting, the arguments ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ E (hE0 ρ) hE2
    (reg0 m) (reg0_pre m) (reg0_post m) (reg1 m) (reg1_pre m) (reg1_post m)

set_option backward.isDefEq.respectTransparency.types false in
/-- THE RUN, every unscoped buffer named: the final memory holds each at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V3 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    0 (fun _ _ => rfl) (fun _ => (BI.emp : sProp 𝕄))
    (initOf (Pipeline.cells cfgs cellOf_inj) (Pipeline.launchToks cfgs cellOf_inj)) hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V3 m (outs m) c))
    (hch := fun c => ⟨reg0_pre m c, reg0_post m c, reg1_pre m c, (reg1_post m c).trans (sep_mono .rfl (hE2 c))⟩)
    (hinit := ?_)
    (QY := fun c s => ∀ b ∈ Pipeline.ucRefs τ sig, s.mem (((c : Thread nD τ)).1, b) = V3 m (outs m) c b)
    (hfin := fun c s' => ?_) (hQ := fun _ h => h)
  · -- every core makes its first thread state from what the launch deals it: the buffers at the launch memory, the rest
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Hdue, -, Hreg, -⟩, -⟩
    imodintro
    isplitl [Hheld]; · iexact Hheld
    isplitl [Hreg]; · iexists _; iexact Hreg
    iexists ∅; iexact Hdue
  · -- the last thread state read against the final memory: each held buffer is there at its valuation
    unfold StableHlo.held
    iintro ⟨Hheld, HSI⟩
    imodintro
    iapply (pointsTo_read_all (Pipeline.ucRefs τ sig) (fun b => (((c : Thread nD τ)).1, b)) (V3 m (outs m) c) s')
    isplitl [Hheld] <;> iassumption

end Cert.Kernel.Hand

end
-- ==== Proof.Spec.lean ====
/-
  What both programs compute, as whole-array functions of the arguments over the extended reals.
  v = W·inp (a sum over the 4096 inputs); the membrane update u₁ = u where the neuron is still refractory
  (r - 1 > 0), else u + 0.1·v; r₁ = r - 1 there, else 0; the neuron fires where u₁ > 0.6, and then
  u' = u₁ - 0.6, r' = 0, z = 1 (else u' = u₁, r' = r₁, z = 0); the pseudo-derivative
  h = 0.3·max(0, 1 - |(u' - 0.6)/0.6|); the trace input eps' = 0.1·eps + inp; and e' = h·eps'ᵀ (a sum over the
  256 batch entries).
-/
import proofs.«155521_j41248865910902_1_alg».proof.KernelIdeal
import proofs.«155521_j41248865910902_1_alg».proof.Proof.Gen.KernelIdeal
import Idealize.ShloMosaic.PureOps.Ideal
import Idealize.ShloMosaic.Lib.ValueIdx

set_option maxRecDepth 16384

noncomputable section

namespace Cert.Spec

open Idealize.ShloMosaic Cert.KernelIdeal Cert.KernelIdeal.Gen

/-- An f32[4096, 256] array and an f32[4096, 4096] array over the extended reals. -/
abbrev A256 : Type := FVec Ideal S4096x256 .f32
abbrev A4096 : Type := FVec Ideal S4096x4096 .f32

/-- Row `p`, column `q` of a 4096 × 256 array; of a 4096 × 4096 array. -/
abbrev ix256 (p : Fin 4096) (q : Fin 256) : S4096x256.Idx := fun a => match a with
  | ⟨0, _⟩ => ⟨p.val, p.isLt⟩
  | ⟨1, _⟩ => ⟨q.val, q.isLt⟩
abbrev ix4096 (p : Fin 4096) (q : Fin 4096) : S4096x4096.Idx := fun a => match a with
  | ⟨0, _⟩ => ⟨p.val, p.isLt⟩
  | ⟨1, _⟩ => ⟨q.val, q.isLt⟩

/-- A scalar literal spread over a 4096 × 256 array. -/
def bc (w : BitVec 32) : A256 := broadcastInDim S4096x256 ![] bcast_S_S4096x256 (constant (F := Ideal) S_ .f32 w)

/-- v = W·inp: entry (p, q) is the sum over k of W[p, k]·inp[k, q]. -/
def newV (inp : A256) (W : A4096) : A256 := fun i =>
  ∑ k : Fin 4096, W (ix4096 ⟨(i 0).val, (i 0).isLt⟩ k) * inp (ix256 k ⟨(i 1).val, (i 1).isLt⟩)

/-- Where the neuron is still refractory after this step. -/
def resting (r : A256) : IVec S4096x256 1 := cmpf (F := Ideal) .ogt (subf (F := Ideal) r (bc 0x3F800000#32)) (bc 0x00000000#32)
def u1 (inp : A256) (W : A4096) (u r : A256) : A256 :=
  select (resting r) u (addf (F := Ideal) u (mulf (F := Ideal) (newV inp W) (bc 0x3DCCCCCD#32)))
def r1 (r : A256) : A256 := select (resting r) (subf (F := Ideal) r (bc 0x3F800000#32)) (bc 0x00000000#32)
/-- Where it fires. -/
def firing (inp : A256) (W : A4096) (u r : A256) : IVec S4096x256 1 := cmpf (F := Ideal) .ogt (u1 inp W u r) (bc 0x3F19999A#32)
def Gu (inp : A256) (W : A4096) (u r : A256) : A256 :=
  select (firing inp W u r) (subf (F := Ideal) (u1 inp W u r) (bc 0x3F19999A#32)) (u1 inp W u r)
def Gr (inp : A256) (W : A4096) (u r : A256) : A256 := select (firing inp W u r) (bc 0x00000000#32) (r1 r)
def Gz (inp : A256) (W : A4096) (u r : A256) : A256 := select (firing inp W u r) (bc 0x3F800000#32) (bc 0x00000000#32)
def Gh (inp : A256) (W : A4096) (u r : A256) : A256 :=
  mulf (F := Ideal) (bc 0x3E99999A#32) (maximumf (F := Ideal) (bc 0x00000000#32) (subf (F := Ideal) (bc 0x3F800000#32)
    (Host.absf (F := Ideal) (Host.divf (F := Ideal) (subf (F := Ideal) (Gu inp W u r) (bc 0x3F19999A#32)) (bc 0x3F19999A#32)))))
def Geps (inp eps : A256) : A256 := addf (F := Ideal) (mulf (F := Ideal) (bc 0x3DCCCCCD#32) eps) inp
/-- a·bᵀ: entry (p, q) is the sum over k of a[p, k]·b[q, k]. -/
def outer (a b : A256) : A4096 := fun i =>
  ∑ k : Fin 256, a (ix256 ⟨(i 0).val, (i 0).isLt⟩ k) * b (ix256 ⟨(i 1).val, (i 1).isLt⟩ k)
/-- e' = h·eps'ᵀ. -/
def Ge (inp : A256) (W : A4096) (u r eps : A256) : A4096 := outer (Gh inp W u r) (Geps inp eps)

end Cert.Spec

end
-- ==== Proof.KI.KPoint.lean ====
/-
  The update is pointwise: an entry of each of the four blocks the kernel stores at the last reduction step is the
  specification's function at the array entry whose accumulated v, u and r the block entries are.
-/
import proofs.«155521_j41248865910902_1_alg».proof.Proof.Gen.KernelIdeal.Skeleton
import proofs.«155521_j41248865910902_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Idealize.ShloMosaic Cert.KernelIdeal Cert.KernelIdeal.Gen Cert.Spec

variable (inp : A256) (W : A4096) (u r : A256) (a ub rb : Vec Ideal S1024x256 .f32) (j : S1024x256.Idx) (i : S4096x256.Idx)

/-- r - 1 > 0 at the entry. -/
theorem pay3_at (hr : rb j = r i) : k0_pay3 (F := Ideal) rb j = resting r i := by
  show FloatOps.cmpf (F := Ideal) (φ := .f32) .ogt (FloatOps.subf (F := Ideal) (φ := .f32) (rb j) _) _ = _
  rw [hr]
  rfl

/-- The membrane update at the entry: u where refractory, else u + 0.1·v. -/
theorem pay4_at (ha : a j = newV inp W i) (hu : ub j = u i) (hr : rb j = r i) :
    k0_pay4 (F := Ideal) a ub rb j = u1 inp W u r i := by
  show Scalar.select (k0_pay3 (F := Ideal) rb j) (ub j) (FloatOps.addf (F := Ideal) (φ := .f32) (ub j) (FloatOps.mulf (F := Ideal) (φ := .f32) (a j) _)) = _
  rw [pay3_at r rb j i hr, ha, hu]
  rfl

/-- u₁ > 0.6 at the entry. -/
theorem pay5_at (ha : a j = newV inp W i) (hu : ub j = u i) (hr : rb j = r i) :
    k0_pay5 (F := Ideal) a ub rb j = firing inp W u r i := by
  show FloatOps.cmpf (F := Ideal) (φ := .f32) .ogt (k0_pay4 (F := Ideal) a ub rb j) _ = _
  rw [pay4_at inp W u r a ub rb j i ha hu hr]
  rfl

theorem pay6_at (ha : a j = newV inp W i) (hu : ub j = u i) (hr : rb j = r i) : k0_pay6 (F := Ideal) a ub rb j = Gu inp W u r i := by
  show Scalar.select (k0_pay5 (F := Ideal) a ub rb j) (FloatOps.subf (F := Ideal) (φ := .f32) (k0_pay4 (F := Ideal) a ub rb j) _) (k0_pay4 (F := Ideal) a ub rb j) = _
  rw [pay5_at inp W u r a ub rb j i ha hu hr, pay4_at inp W u r a ub rb j i ha hu hr]
  rfl

theorem pay7_at (ha : a j = newV inp W i) (hu : ub j = u i) (hr : rb j = r i) : k0_pay7 (F := Ideal) a ub rb j = Gr inp W u r i := by
  show Scalar.select (k0_pay5 (F := Ideal) a ub rb j) _ (Scalar.select (k0_pay3 (F := Ideal) rb j) (FloatOps.subf (F := Ideal) (φ := .f32) (rb j) _) _) = _
  rw [pay5_at inp W u r a ub rb j i ha hu hr, pay3_at r rb j i hr, hr]
  rfl

theorem pay8_at (ha : a j = newV inp W i) (hu : ub j = u i) (hr : rb j = r i) : k0_pay8 (F := Ideal) a ub rb j = Gz inp W u r i := by
  show Scalar.select (k0_pay5 (F := Ideal) a ub rb j) _ _ = _
  rw [pay5_at inp W u r a ub rb j i ha hu hr]
  rfl

theorem pay9_at (ha : a j = newV inp W i) (hu : ub j = u i) (hr : rb j = r i) : k0_pay9 (F := Ideal) a ub rb j = Gh inp W u r i := by
  show FloatOps.mulf (F := Ideal) (φ := .f32) _ (FloatOps.maximumf (F := Ideal) (φ := .f32) _ (FloatOps.subf (F := Ideal) (φ := .f32) _ (FloatOps.absf (F := Ideal) (φ := .f32) (FloatOps.divf (F := Ideal) (φ := .f32) (FloatOps.subf (F := Ideal) (φ := .f32) (k0_pay6 (F := Ideal) a ub rb j) _) _)))) = _
  rw [pay6_at inp W u r a ub rb j i ha hu hr]
  rfl

end Cert.KernelIdeal.HandVal

end
-- ==== Proof.KI.KVal0.lean ====
/-
  The values region 0 leaves, over the extended reals: after the last reduction step of row block i the accumulator
  holds rows 1024·i … 1024·i + 1023 of W·inp (the four block products added from zero are the whole sum over the 4096
  inputs), so the four blocks written back there are the blocks of the update's whole-array functions; the blocks
  written back at k = 3 of the four row blocks tile the arrays.
-/
import proofs.«155521_j41248865910902_1_alg».proof.Proof.KI.R0Data
import proofs.«155521_j41248865910902_1_alg».proof.Proof.KI.KPoint
import proofs.«155521_j41248865910902_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx

/-! ## One block product at an entry -/

theorem lhs_blockdot_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_blockdot_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_blockdot_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_blockdot_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The body's accumulation step at an entry: what the accumulator held plus the block product's entry, a sum over the
    block's 1024 inputs. -/
theorem pay2_at (w : Vec Ideal S1024x1024 .f32) (x a : Vec Ideal S1024x256 .f32) (y : Fin 1024) (q : Fin 256) :
    k0_pay2 (F := Ideal) w x a (ix2 y q) = a (ix2 y q) + ∑ k : Fin 1024, w (ix2 y k) * x (ix2 k q) := by
  unfold k0_pay2
  simp only [shapeCast_self]
  refine (addf_apply _ _ _).trans ?_
  congr 1
  refine (Ideal.matmul_constant_zero_apply dot_S1024x1024_S1024x256_S1024x256_1_0_0_1_n_n none _ _ (ix2 y q)).trans ?_
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 y q) ((ValueIdx.contrEquiv1 dot_S1024x1024_S1024x256_S1024x256_1_0_0_1_n_n 1024 rfl rfl).symm k) = ix2 y k := funext fun a => Fin.ext (by
    match a with
    | ⟨0, _⟩ => exact lhs_blockdot_0 _ _
    | ⟨1, _⟩ => exact (lhs_blockdot_1 _ _).trans hk)
  have er : dot_S1024x1024_S1024x256_S1024x256_1_0_0_1_n_n.rhsIdx (ix2 y q) ((ValueIdx.contrEquiv1 dot_S1024x1024_S1024x256_S1024x256_1_0_0_1_n_n 1024 rfl rfl).symm k) = ix2 k q := funext fun a => Fin.ext (by
    match a with
    | ⟨0, _⟩ => exact (rhs_blockdot_0 _ _).trans hk
    | ⟨1, _⟩ => exact rhs_blockdot_1 _ _)
  rw [truncf_apply, truncf_apply, el, er]

/-- The accumulator's restart value is zero everywhere. -/
theorem pay1_at (j : S1024x256.Idx) : k0_pay1 (F := Ideal) j = 0 := by
  unfold k0_pay1
  simp only [shapeCast_self]
  exact Ideal.ofBits_zero_f32

variable (V : (c : Dev nD) → (b : Ref sig .tc) → Buf (Elt Ideal) ((c : Thread nD τ).loc b))

/-! ## The blocks as entries of the arrays -/

/-- The block index maps over the grid: at point t = 4·i + k the W block is (i, k), the inp block (k, 0), the u and r
    blocks and the four outputs' blocks (i, 0). -/
theorem blockIdx_W : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem blockIdx_inp : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem blockIdx_u : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem blockIdx_r : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- An entry of the W block at point t = 4·i + k is W at row 1024·i + ·, column 1024·k + ·. -/
theorem wblk_at (c : Dev nD) (t : Fin cfg0.N) (x : S1024x1024.Idx) (k : S4096x4096.Idx)
    (hk0 : (k 0).val = 1024 * (t.val / 4) + (x 0).val) (hk1 : (k 1).val = 1024 * (t.val % 4) + (x 1).val) :
    wblk V c t x = (V c main_arg1 : S4096x4096.Idx → Elt Ideal .f32) k := by
  have hi := blockIdx_W t
  show iblk0 V c 0 t x = _
  unfold iblk0
  rw [View.read_apply]
  show V c main_arg1 _ = V c main_arg1 _
  congr 1
  funext a
  apply Fin.ext
  match a with
  | ⟨0, _⟩ => show win0_0.index t (0 : Fin 2) * 1024 + 1 * (x 0).val = (k 0).val; rw [hi.1, hk0]; omega
  | ⟨1, _⟩ => show win0_0.index t (1 : Fin 2) * 1024 + 1 * (x 1).val = (k 1).val; rw [hi.2, hk1]; omega

/-- An entry of the inp block at point t = 4·i + k is inp at row 1024·k + ·. -/
theorem xblk_at (c : Dev nD) (t : Fin cfg0.N) (x : S1024x256.Idx) (k : S4096x256.Idx)
    (hk0 : (k 0).val = 1024 * (t.val % 4) + (x 0).val) (hk1 : (k 1).val = (x 1).val) :
    xblk V c t x = (V c main_arg0 : S4096x256.Idx → Elt Ideal .f32) k := by
  have hi := blockIdx_inp t
  show iblk0 V c 1 t x = _
  unfold iblk0
  rw [View.read_apply]
  show V c main_arg0 _ = V c main_arg0 _
  congr 1
  funext a
  apply Fin.ext
  match a with
  | ⟨0, _⟩ => show win0_1.index t (0 : Fin 2) * 1024 + 1 * (x 0).val = (k 0).val; rw [hi.1, hk0]; omega
  | ⟨1, _⟩ => show win0_1.index t (1 : Fin 2) * 256 + 1 * (x 1).val = (k 1).val; rw [hi.2, hk1]; omega

/-- An entry of the u block at point t = 4·i + k is u at row 1024·i + ·. -/
theorem ublk_at (c : Dev nD) (t : Fin cfg0.N) (x : S1024x256.Idx) (k : S4096x256.Idx)
    (hk0 : (k 0).val = 1024 * (t.val / 4) + (x 0).val) (hk1 : (k 1).val = (x 1).val) :
    ublk V c t x = (V c main_arg2 : S4096x256.Idx → Elt Ideal .f32) k := by
  have hi := blockIdx_u t
  show iblk0 V c 2 t x = _
  unfold iblk0
  rw [View.read_apply]
  show V c main_arg2 _ = V c main_arg2 _
  congr 1
  funext a
  apply Fin.ext
  match a with
  | ⟨0, _⟩ => show win0_2.index t (0 : Fin 2) * 1024 + 1 * (x 0).val = (k 0).val; rw [hi.1, hk0]; omega
  | ⟨1, _⟩ => show win0_2.index t (1 : Fin 2) * 256 + 1 * (x 1).val = (k 1).val; rw [hi.2, hk1]; omega

/-- An entry of the r block at point t = 4·i + k is r at row 1024·i + ·. -/
theorem rblk_at (c : Dev nD) (t : Fin cfg0.N) (x : S1024x256.Idx) (k : S4096x256.Idx)
    (hk0 : (k 0).val = 1024 * (t.val / 4) + (x 0).val) (hk1 : (k 1).val = (x 1).val) :
    rblk V c t x = (V c main_arg3 : S4096x256.Idx → Elt Ideal .f32) k := by
  have hi := blockIdx_r t
  show iblk0 V c 3 t x = _
  unfold iblk0
  rw [View.read_apply]
  show V c main_arg3 _ = V c main_arg3 _
  congr 1
  funext a
  apply Fin.ext
  match a with
  | ⟨0, _⟩ => show win0_3.index t (0 : Fin 2) * 1024 + 1 * (x 0).val = (k 0).val; rw [hi.1, hk0]; omega
  | ⟨1, _⟩ => show win0_3.index t (1 : Fin 2) * 256 + 1 * (x 1).val = (k 1).val; rw [hi.2, hk1]; omega

/-! ## The accumulator -/

/-- Input j's contribution to entry (p, q) of W·inp, as a function of three naturals (zero outside the arrays). -/
def term (inp : Cert.Spec.A256) (W : Cert.Spec.A4096) (p q j : ℕ) : EReal :=
  if h : j < 4096 ∧ p < 4096 ∧ q < 256 then
    W (Cert.Spec.ix4096 ⟨p, h.2.1⟩ ⟨j, h.1⟩) * inp (Cert.Spec.ix256 ⟨j, h.1⟩ ⟨q, h.2.2⟩)
  else 0

/-- An entry of W·inp is the sum of the contributions of the inputs 0 … 4095. -/
theorem newV_eq_sum (inp : Cert.Spec.A256) (W : Cert.Spec.A4096) (i : S4096x256.Idx) :
    Cert.Spec.newV inp W i = ∑ j ∈ Finset.range 4096, term inp W (i 0).val (i 1).val j := by
  unfold Cert.Spec.newV
  rw [Finset.sum_range]
  refine Finset.sum_congr rfl fun k _ => ?_
  unfold term
  rw [dif_pos ⟨k.isLt, (i 0).isLt, (i 1).isLt⟩]

/-- The body's accumulation step at point t = 4·i + k, at an entry: the contributions of the inputs
    1024·k … 1024·k + 1023 to row 1024·i + y are added. -/
theorem step_at (c : Dev nD) (t : Fin cfg0.N) (a : Vec Ideal S1024x256 .f32) (y : Fin 1024) (q : Fin 256) :
    k0_pay2 (F := Ideal) (wblk V c t) (xblk V c t) a (ix2 y q)
      = a (ix2 y q) + ∑ j ∈ Finset.range 1024,
          term (V c main_arg0) (V c main_arg1) (1024 * (t.val / 4) + y.val) q.val (1024 * (t.val % 4) + j) := by
  refine (pay2_at (wblk V c t) (xblk V c t) a y q).trans ?_
  congr 1
  rw [Finset.sum_range]
  refine Finset.sum_congr rfl fun k _ => ?_
  have ht : t.val < 16 := t.isLt
  have hk : 1024 * (t.val % 4) + k.val < 4096 := by omega
  have hp : 1024 * (t.val / 4) + y.val < 4096 := by omega
  unfold term
  rw [dif_pos ⟨hk, hp, q.isLt⟩]
  exact congrArg₂ (· * ·)
    (wblk_at V c t (ix2 y k) (Cert.Spec.ix4096 ⟨1024 * (t.val / 4) + y.val, hp⟩ ⟨1024 * (t.val % 4) + k.val, hk⟩) rfl rfl)
    (xblk_at V c t (ix2 k q) (Cert.Spec.ix256 ⟨1024 * (t.val % 4) + k.val, hk⟩ ⟨q.val, q.isLt⟩) rfl rfl)

/-- The sum over the first 1024·(m + 1) inputs is the sum over the first 1024·m and the next 1024. -/
theorem sum_next_block (f : ℕ → EReal) (m : ℕ) :
    ∑ j ∈ Finset.range (1024 * (m + 1)), f j
      = ∑ j ∈ Finset.range (1024 * m), f j + ∑ j ∈ Finset.range 1024, f (1024 * m + j) := by
  rw [Nat.mul_add, Nat.mul_one, Finset.sum_range_add]

/-- THE INVARIANT: after point n = 4·i + k the accumulator's entry (y, q) is the sum of the contributions of the first
    1024·(k + 1) inputs to row 1024·i + y. -/
theorem acc_inv (c : Dev nD) : ∀ (n : ℕ) (hn : n < cfg0.N) (y : Fin 1024) (q : Fin 256),
    accAt V c n hn (ix2 y q)
      = ∑ j ∈ Finset.range (1024 * (n % 4 + 1)), term (V c main_arg0) (V c main_arg1) (1024 * (n / 4) + y.val) q.val j := by
  have reset : ∀ (t : Fin cfg0.N), t.val % 4 = 0 → ∀ (y : Fin 1024) (q : Fin 256),
      accAt V c t.val t.isLt (ix2 y q)
        = ∑ j ∈ Finset.range (1024 * (t.val % 4 + 1)), term (V c main_arg0) (V c main_arg1) (1024 * (t.val / 4) + y.val) q.val j := by
    intro t h y q
    refine (congrFun (accAt_reset V c t h) (ix2 y q)).trans ?_
    refine (step_at V c t _ y q).trans ?_
    rw [sum_next_block, pay1_at, h]
    simp only [Nat.mul_zero, Finset.range_zero, Finset.sum_empty]
  intro n
  induction n with
  | zero => intro hn y q; exact reset ⟨0, hn⟩ rfl y q
  | succ n ih =>
    intro hn y q
    by_cases h : (n + 1) % 4 = 0
    · exact reset ⟨n + 1, hn⟩ h y q
    · refine (congrFun (accAt_step V c ⟨n + 1, hn⟩ h) (ix2 y q)).trans ?_
      refine (step_at V c ⟨n + 1, hn⟩ _ y q).trans ?_
      rw [sum_next_block]
      congr 1
      have e1 : (n + 1) / 4 = n / 4 := by omega
      have e2 : (n + 1) % 4 = n % 4 + 1 := by omega
      show accAt V c n _ (ix2 y q) = ∑ j ∈ Finset.range (1024 * ((n + 1) % 4)), term (V c main_arg0) (V c main_arg1) (1024 * ((n + 1) / 4) + y.val) q.val j
      rw [e1, e2]
      exact ih (Nat.lt_of_succ_lt hn) y q

/-- At the last reduction step of a row block the accumulator holds that block's rows of W·inp. -/
theorem acc_last (c : Dev nD) (t : Fin cfg0.N) (h3 : t.val % 4 = 3) (j : S1024x256.Idx) (i : S4096x256.Idx)
    (hi0 : (i 0).val = 1024 * (t.val / 4) + (j 0).val) (hi1 : (i 1).val = (j 1).val) :
    accAt V c t.val t.isLt j = Cert.Spec.newV (V c main_arg0) (V c main_arg1) i := by
  rw [newV_eq_sum, hi0, hi1]
  refine (congrArg (accAt V c t.val t.isLt) (eq_ix2 j)).trans ?_
  refine (acc_inv V c t.val t.isLt (j 0) (j 1)).trans ?_
  rw [h3]

/-! ## The four outputs: the block written back, the cover, the array -/

/-- The z window's block index at point t = 4·i + k is (i, 0). -/
theorem outIdx_z : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-- At the last reduction step of row block i an entry of the z block is the specification's at the array entry it
    is written to. -/
theorem z_at (c : Dev nD) (t : Fin cfg0.N) (h3 : t.val % 4 = 3) (j : S1024x256.Idx) :
    k0_pay8 (F := Ideal) (accAt V c t.val t.isLt) (ublk V c t) (rblk V c t) j
      = Cert.Spec.Gz (V c main_arg0) (V c main_arg1) (V c main_arg2) (V c main_arg3) (((cfg0.win 4).blk t).view.emb j) := by
  have hi := outIdx_z t
  have e0 : ((((cfg0.win 4).blk t).view.emb j) 0).val = 1024 * (t.val / 4) + (j 0).val := by
    show win0_4.index t (0 : Fin 2) * 1024 + 1 * (j 0).val = _
    rw [hi.1]; omega
  have e1 : ((((cfg0.win 4).blk t).view.emb j) 1).val = (j 1).val := by
    show win0_4.index t (1 : Fin 2) * 256 + 1 * (j 1).val = _
    rw [hi.2]; omega
  exact pay8_at (V c main_arg0) (V c main_arg1) (V c main_arg2) (V c main_arg3) (accAt V c t.val t.isLt) (ublk V c t) (rblk V c t) j
    (((cfg0.win 4).blk t).view.emb j) (acc_last V c t h3 j _ e0 e1) (ublk_at V c t j _ e0 e1) (rblk_at V c t j _ e0 e1)

/-- What a point with k = 3 writes back to the z array is its block of the specification's array. -/
theorem flushed_z (c : Dev nD) (t : Fin cfg0.N) (hf : (cfg0.win 4).flush t = true) :
    (dat0 V c).flushed 4 t = ((cfg0.win 4).blk t).view.read (Elt Ideal) (Cert.Spec.Gz (V c main_arg0) (V c main_arg1) (V c main_arg2) (V c main_arg3)) := by
  have h3 : t.val % 4 = 3 := (flush0_4 t).mp hf
  show (cfg0.win 4).cut (grid0.coords t) ((dat0 V c).after 4 t) = _
  rw [after0_4]
  funext j
  exact z_at V c t h3 j

/-- An entry of the z array is in point t's block iff each coordinate is in the block's range. -/
theorem mem_blk_z (t : Fin cfg0.N) (i : S4096x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v0_0).slice (win0_4.rect t)).set ↔ _
  rw [View.set_slice_whole, Rect.mem_set_unit]
  exact Iff.rfl

/-- Entry (p, q) of the z array is written back at the last reduction step of row block p / 1024. -/
theorem cover_z (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ : ∃ t : Fin cfg0.N, t.val = 4 * ((i 0).val / 1024) + 3 :=
    ⟨⟨4 * ((i 0).val / 1024) + 3, by show _ < 16; omega⟩, rfl⟩
  have hb := outIdx_z t
  refine ⟨t, (flush0_4 t).mpr (by omega), ?_⟩
  rw [mem_blk_z]
  intro a
  match a with
  | ⟨0, _⟩ =>
    show win0_4.index t (0 : Fin 2) * 1024 ≤ (i 0).val ∧ (i 0).val < win0_4.index t (0 : Fin 2) * 1024 + 1024
    rw [hb.1]; omega
  | ⟨1, _⟩ =>
    show win0_4.index t (1 : Fin 2) * 256 ≤ (i 1).val ∧ (i 1).val < win0_4.index t (1 : Fin 2) * 256 + 256
    rw [hb.2]; omega

/-- The new u window's block index at point t = 4·i + k is (i, 0). -/
theorem outIdx_u : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- At the last reduction step of row block i an entry of the new u block is the specification's at the array entry it
    is written to. -/
theorem u_at (c : Dev nD) (t : Fin cfg0.N) (h3 : t.val % 4 = 3) (j : S1024x256.Idx) :
    k0_pay6 (F := Ideal) (accAt V c t.val t.isLt) (ublk V c t) (rblk V c t) j
      = Cert.Spec.Gu (V c main_arg0) (V c main_arg1) (V c main_arg2) (V c main_arg3) (((cfg0.win 5).blk t).view.emb j) := by
  have hi := outIdx_u t
  have e0 : ((((cfg0.win 5).blk t).view.emb j) 0).val = 1024 * (t.val / 4) + (j 0).val := by
    show win0_5.index t (0 : Fin 2) * 1024 + 1 * (j 0).val = _
    rw [hi.1]; omega
  have e1 : ((((cfg0.win 5).blk t).view.emb j) 1).val = (j 1).val := by
    show win0_5.index t (1 : Fin 2) * 256 + 1 * (j 1).val = _
    rw [hi.2]; omega
  exact pay6_at (V c main_arg0) (V c main_arg1) (V c main_arg2) (V c main_arg3) (accAt V c t.val t.isLt) (ublk V c t) (rblk V c t) j
    (((cfg0.win 5).blk t).view.emb j) (acc_last V c t h3 j _ e0 e1) (ublk_at V c t j _ e0 e1) (rblk_at V c t j _ e0 e1)

/-- What a point with k = 3 writes back to the new u array is its block of the specification's array. -/
theorem flushed_u (c : Dev nD) (t : Fin cfg0.N) (hf : (cfg0.win 5).flush t = true) :
    (dat0 V c).flushed 5 t = ((cfg0.win 5).blk t).view.read (Elt Ideal) (Cert.Spec.Gu (V c main_arg0) (V c main_arg1) (V c main_arg2) (V c main_arg3)) := by
  have h3 : t.val % 4 = 3 := (flush0_5 t).mp hf
  show (cfg0.win 5).cut (grid0.coords t) ((dat0 V c).after 5 t) = _
  rw [after0_5]
  funext j
  exact u_at V c t h3 j

/-- An entry of the new u array is in point t's block iff each coordinate is in the block's range. -/
theorem mem_blk_u (t : Fin cfg0.N) (i : S4096x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_1).slice (win0_5.rect t)).set ↔ _
  rw [View.set_slice_whole, Rect.mem_set_unit]
  exact Iff.rfl

/-- Entry (p, q) of the new u array is written back at the last reduction step of row block p / 1024. -/
theorem cover_u (i : S4096x256.Idx) :
    ∃ t : Fin cfg0.N, (cfg0.win 5).flush t = true ∧ i ∈ ((cfg0.win 5).blk t).view.set := by
  have hi0 : (i 0).val < 4096 := (i 0).isLt
  have hi1 : (i 1).val < 256 := (i 1).isLt
  obtain ⟨t, ht⟩ : ∃ t : Fin cfg0.N, t.val = 4 * ((i 0).val / 1024) + 3 :=
    ⟨⟨4 * ((i 0).val / 1024) + 3, by show _ < 16; omega⟩, rfl⟩
  have hb := outIdx_u t
  refine ⟨t, (flush0_5 t).mpr (by omega), ?_⟩
  rw [mem_blk_u]
  intro a
  match a with
  | ⟨0, _⟩ =>
    show win0_5.index t (0 : Fin 2) * 1024 ≤ (i 0).val ∧ (i 0).val < win0_5.index t (0 : Fin 2) * 1024 + 1024
    rw [hb.1]; omega
  | ⟨1, _⟩ =>
    show win0_5.index t (1 : Fin 2) * 256 ≤ (i 1).val ∧ (i 1).val < win0_5.index t (1 : Fin 2) * 256 + 256
    rw [hb.2]; omega

/-- The new r window's block index at point t = 4·i + k is (i, 0). -/
theorem outIdx_r : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)

/-- At the last reduction step of row block i an entry of the new r block is the specification's at the array entry it
    is written to. -/
theorem r_at (c : Dev nD) (t : Fin cfg0.N) (h3 : t.val % 4 = 3) (j : S1024x256.Idx) :
    k0_pay7 (F := Ideal) (accAt V c t.val t.isLt) (ublk V c t) (rblk V c t) j
      = Cert.Spec.Gr (V c main_arg0) (V c main_arg1) (V c main_arg2) (V c main_arg3) (((cfg0.win 6).blk t).view.emb j) := by
  have hi := outIdx_r t
  have e0 : ((((cfg0.win 6).blk t).view.emb j) 0).val = 1024 * (t.val / 4) + (j 0).val := by
    show win0_6.index t (0 : Fin 2) * 1024 + 1 * (j 0).val = _
    rw [hi.1]; omega
  have e1 : ((((cfg0.win 6).blk t).view.emb j) 1).val = (j 1).val := by
    show win0_6.index t (1 : Fin 2) * 256 + 1 * (j 1).val = _
    rw [hi.2]; omega
  exact pay7_at (V c main_arg0) (V c main_arg1) (V c main_arg2) (V c main_arg3) (accAt V c t.val t.isLt) (ublk V c t) (rblk V c t) j
    (((cfg0.win 6).blk t).view.emb j) (acc_last V c t h3 j _ e0 e1) (ublk_at V c t j _ e0 e1) (rblk_at V c t j _ e0 e1)

/-- What a point with k = 3 writes back to the new r array is its block of the specification's array. -/
theorem flushed_r (c : Dev nD) (t : Fin cfg0.N) (hf : (cfg0.win 6).flush t = true) :
    (dat0 V c).flushed 6 t = ((cfg0.win 6).blk t).view.read (Elt Ideal) (Cert.Spec.Gr (V c main_arg0) (V c main_arg1) (V c main_arg2) (V c main_arg3)) := by
  have h3 : t.val % 4 = 3 := (flush0_6 t).mp hf
  show (cfg0.win 6).cut (grid0.coords t) ((dat0 V c).after 6 t) = _
  rw [after0_6]
  funext j
  exact r_at V c t h3 j

/-- An entry of the new r array is in point t's block iff each coordinate is in the block's range. -/
theorem mem_blk_r (t : Fin cfg0.N) (i : S4096x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_2).slice (win0_6.rect t)).set ↔ _
  rw [View.set_slice_whole, Rect.mem_set_unit]
  exact Iff.rfl

/-- Entry (p, q) of the new r array is written back at the last reduction step of row block p / 1024. -/
theorem cover_r (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  obtain ⟨t, ht⟩ : ∃ t : Fin cfg0.N, t.val = 4 * ((i 0).val / 1024) + 3 :=
    ⟨⟨4 * ((i 0).val / 1024) + 3, by show _ < 16; omega⟩, rfl⟩
  have hb := outIdx_r t
  refine ⟨t, (flush0_6 t).mpr (by omega), ?_⟩
  rw [mem_blk_r]
  intro a
  match a with
  | ⟨0, _⟩ =>
    show win0_6.index t (0 : Fin 2) * 1024 ≤ (i 0).val ∧ (i 0).val < win0_6.index t (0 : Fin 2) * 1024 + 1024
    rw [hb.1]; omega
  | ⟨1, _⟩ =>
    show win0_6.index t (1 : Fin 2) * 256 ≤ (i 1).val ∧ (i 1).val < win0_6.index t (1 : Fin 2) * 256 + 256
    rw [hb.2]; omega

/-- The h window's block index at point t = 4·i + k is (i, 0). -/
theorem outIdx_h : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- At the last reduction step of row block i an entry of the h block is the specification's at the array entry it
    is written to. -/
theorem h_at (c : Dev nD) (t : Fin cfg0.N) (h3 : t.val % 4 = 3) (j : S1024x256.Idx) :
    k0_pay9 (F := Ideal) (accAt V c t.val t.isLt) (ublk V c t) (rblk V c t) j
      = Cert.Spec.Gh (V c main_arg0) (V c main_arg1) (V c main_arg2) (V c main_arg3) (((cfg0.win 7).blk t).view.emb j) := by
  have hi := outIdx_h t
  have e0 : ((((cfg0.win 7).blk t).view.emb j) 0).val = 1024 * (t.val / 4) + (j 0).val := by
    show win0_7.index t (0 : Fin 2) * 1024 + 1 * (j 0).val = _
    rw [hi.1]; omega
  have e1 : ((((cfg0.win 7).blk t).view.emb j) 1).val = (j 1).val := by
    show win0_7.index t (1 : Fin 2) * 256 + 1 * (j 1).val = _
    rw [hi.2]; omega
  exact pay9_at (V c main_arg0) (V c main_arg1) (V c main_arg2) (V c main_arg3) (accAt V c t.val t.isLt) (ublk V c t) (rblk V c t) j
    (((cfg0.win 7).blk t).view.emb j) (acc_last V c t h3 j _ e0 e1) (ublk_at V c t j _ e0 e1) (rblk_at V c t j _ e0 e1)

/-- What a point with k = 3 writes back to the h array is its block of the specification's array. -/
theorem flushed_h (c : Dev nD) (t : Fin cfg0.N) (hf : (cfg0.win 7).flush t = true) :
    (dat0 V c).flushed 7 t = ((cfg0.win 7).blk t).view.read (Elt Ideal) (Cert.Spec.Gh (V c main_arg0) (V c main_arg1) (V c main_arg2) (V c main_arg3)) := by
  have h3 : t.val % 4 = 3 := (flush0_7 t).mp hf
  show (cfg0.win 7).cut (grid0.coords t) ((dat0 V c).after 7 t) = _
  rw [after0_7]
  funext j
  exact h_at V c t h3 j

/-- An entry of the h array is in point t's block iff each coordinate is in the block's range. -/
theorem mem_blk_h (t : Fin cfg0.N) (i : S4096x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0_3).slice (win0_7.rect t)).set ↔ _
  rw [View.set_slice_whole, Rect.mem_set_unit]
  exact Iff.rfl

/-- Entry (p, q) of the h array is written back at the last reduction step of row block p / 1024. -/
theorem cover_h (i : S4096x256.Idx) :
    ∃ t : Fin cfg0.N, (cfg0.win 7).flush t = true ∧ i ∈ ((cfg0.win 7).blk t).view.set := by
  have hi0 : (i 0).val < 4096 := (i 0).isLt
  have hi1 : (i 1).val < 256 := (i 1).isLt
  obtain ⟨t, ht⟩ : ∃ t : Fin cfg0.N, t.val = 4 * ((i 0).val / 1024) + 3 :=
    ⟨⟨4 * ((i 0).val / 1024) + 3, by show _ < 16; omega⟩, rfl⟩
  have hb := outIdx_h t
  refine ⟨t, (flush0_7 t).mpr (by omega), ?_⟩
  rw [mem_blk_h]
  intro a
  match a with
  | ⟨0, _⟩ =>
    show win0_7.index t (0 : Fin 2) * 1024 ≤ (i 0).val ∧ (i 0).val < win0_7.index t (0 : Fin 2) * 1024 + 1024
    rw [hb.1]; omega
  | ⟨1, _⟩ =>
    show win0_7.index t (1 : Fin 2) * 256 ≤ (i 1).val ∧ (i 1).val < win0_7.index t (1 : Fin 2) * 256 + 256
    rw [hb.2]; omega

theorem arr0_z (c : Dev nD) : (dat0 V c).arrAt 4 cfg0.N = Cert.Spec.Gz (V c main_arg0) (V c main_arg1) (V c main_arg2) (V c main_arg3) :=
  (dat0 V c).arrAt_eq_of_cover 4 (Cert.Spec.Gz (V c main_arg0) (V c main_arg1) (V c main_arg2) (V c main_arg3)) (flushed_z V c) cover_z
theorem arr0_u (c : Dev nD) : (dat0 V c).arrAt 5 cfg0.N = Cert.Spec.Gu (V c main_arg0) (V c main_arg1) (V c main_arg2) (V c main_arg3) :=
  (dat0 V c).arrAt_eq_of_cover 5 (Cert.Spec.Gu (V c main_arg0) (V c main_arg1) (V c main_arg2) (V c main_arg3)) (flushed_u V c) cover_u
theorem arr0_r (c : Dev nD) : (dat0 V c).arrAt 6 cfg0.N = Cert.Spec.Gr (V c main_arg0) (V c main_arg1) (V c main_arg2) (V c main_arg3) :=
  (dat0 V c).arrAt_eq_of_cover 6 (Cert.Spec.Gr (V c main_arg0) (V c main_arg1) (V c main_arg2) (V c main_arg3)) (flushed_r V c) cover_r
theorem arr0_h (c : Dev nD) : (dat0 V c).arrAt 7 cfg0.N = Cert.Spec.Gh (V c main_arg0) (V c main_arg1) (V c main_arg2) (V c main_arg3) :=
  (dat0 V c).arrAt_eq_of_cover 7 (Cert.Spec.Gh (V c main_arg0) (V c main_arg1) (V c main_arg2) (V c main_arg3)) (flushed_h V c) cover_h

end Cert.KernelIdeal.HandVal

end
-- ==== Proof.KI.KVal1.lean ====
/-
  The value region 1 leaves, over the extended reals: the block written back at point (i, j) is the block (i, j) of
  h·eps'ᵀ — the product of a row block of h with the transposed row block of eps' is, entry by entry, the sum over the
  256 batch entries —, and the sixteen blocks tile the array.
-/
import proofs.«155521_j41248865910902_1_alg».proof.Proof.KI.R1Data
import proofs.«155521_j41248865910902_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable (V : (c : Dev nD) → (b : Ref sig .tc) → Buf (Elt Ideal) ((c : Thread nD τ).loc b))

open Idealize.ShloMosaic.ValueIdx

/-! ## The block product at an entry -/

/-- The left operand's index at output entry `j` and contraction position `q`: row `j 0`, column `q`. -/
theorem lhs1_0 (j : S1024x1024.Idx) (q : dot_S1024x256_S256x1024_S1024x1024_1_0_0_1_n_n.contr.Idx) : (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs1_1 (j : S1024x1024.Idx) (q : dot_S1024x256_S256x1024_S1024x1024_1_0_0_1_n_n.contr.Idx) : (dot_S1024x256_S256x1024_S1024x1024_1_0_0_1_n_n.lhsIdx j q 1).val = (q ⟨0, by decide⟩).val :=
  dot_S1024x256_S256x1024_S1024x1024_1_0_0_1_n_n.lhsIdx_val_of_single rfl j q
/-- The right operand's (the transposed block's): row `q`, column `j 1`. -/
theorem rhs1_0 (j : S1024x1024.Idx) (q : dot_S1024x256_S256x1024_S1024x1024_1_0_0_1_n_n.contr.Idx) : (dot_S1024x256_S256x1024_S1024x1024_1_0_0_1_n_n.rhsIdx j q 0).val = (q ⟨0, by decide⟩).val :=
  dot_S1024x256_S256x1024_S1024x1024_1_0_0_1_n_n.rhsIdx_val_of_single rfl j q
theorem rhs1_1 (j : S1024x1024.Idx) (q : dot_S1024x256_S256x1024_S1024x1024_1_0_0_1_n_n.contr.Idx) : (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Row `p`, column `k` of a 1024 × 256 block. -/
abbrev bix (p : Fin 1024) (k : Fin 256) : S1024x256.Idx := fun a => match a with
  | ⟨0, _⟩ => ⟨p.val, p.isLt⟩
  | ⟨1, _⟩ => ⟨k.val, k.isLt⟩

/-- Entry `j` of the product of a block with a transposed block is the sum over the 256 columns of the products of
    row `j 0` of the first with row `j 1` of the second: over the extended reals the narrowing is the identity. -/
theorem pay1_apply (x0 x1 : Vec Ideal S1024x256 .f32) (j : S1024x1024.Idx) :
    k1_pay1 (F := Ideal) x0 x1 j
      = ∑ k : Fin 256, x0 (bix ⟨(j 0).val, (j 0).isLt⟩ k) * x1 (bix ⟨(j 1).val, (j 1).isLt⟩ k) := by
  unfold k1_pay1
  rw [shapeCast_self, shapeCast_self]
  show FloatOps.matmul dot_S1024x256_S256x1024_S1024x1024_1_0_0_1_n_n none _ _ (constant S1024x1024 .f32 0x00000000#32) j = _
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx j ((contrEquiv1 dot_S1024x256_S256x1024_S1024x1024_1_0_0_1_n_n 256 rfl rfl).symm k) = bix ⟨(j 0).val, (j 0).isLt⟩ k := funext fun a => Fin.ext (by
    match a with
    | ⟨0, _⟩ => exact lhs1_0 _ _
    | ⟨1, _⟩ => exact (lhs1_1 _ _).trans hk)
  rw [el]
  refine congrArg₂ (· * ·) rfl ?_
  exact transpose_apply [1, 0] (truncf (F := Ideal) .bf16 x1 bitsLt_bf16_f32) transposes_S1024x256_p1_0_S256x1024
    (dot_S1024x256_S256x1024_S1024x1024_1_0_0_1_n_n.rhsIdx j ((contrEquiv1 dot_S1024x256_S256x1024_S1024x1024_1_0_0_1_n_n 256 rfl rfl).symm k)) (bix ⟨(j 1).val, (j 1).isLt⟩ k) (fun b => by
    match b with
    | ⟨0, _⟩ => exact ((rhs1_0 j _).trans hk).symm
    | ⟨1, _⟩ => exact (rhs1_1 j _).symm)

/-! ## The blocks in their arrays -/

/-- The index maps over the grid: point `t` writes block row `t / 4`, block column `t % 4` of the output, from row block
    `t / 4` of the first input and row block `t % 4` of the second. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

/-- An input block at an index is its array where the block's rectangle puts the index. -/
theorem hblk_apply (c : Dev nD) (t : Fin cfg1.N) (y : S1024x256.Idx) :
    hblk V c t y = V c main_v0_3 (((cfg1.win 0).blk t).view.emb y) := rfl
theorem eblk_apply (c : Dev nD) (t : Fin cfg1.N) (y : S1024x256.Idx) :
    eblk V c t y = V c main_v3 (((cfg1.win 1).blk t).view.emb y) := rfl

/-- What point `t` writes back is block `t` of the product of the first input array with the transposed second. -/
theorem flushed1_2 (c : Dev nD) (t : Fin cfg1.N) :
    (dat1 V c).flushed 2 t = ((cfg1.win 2).blk t).view.read (Elt Ideal) (Cert.Spec.outer (V c main_v0_3) (V c main_v3)) := by
  show (cfg1.win 2).cut (grid1.coords t) ((dat1 V c).after 2 t) = _
  rw [after1_2]
  obtain ⟨e0, e1, e2, e3, e4, e5⟩ := idx_facts1 t
  funext j
  show k1_pay1 (hblk V c t) (eblk V c t) j = Cert.Spec.outer (V c main_v0_3) (V c main_v3) (((cfg1.win 2).blk t).view.emb j)
  rw [pay1_apply]
  unfold Cert.Spec.outer
  refine Finset.sum_congr rfl fun k _ => ?_
  refine congrArg₂ (· * ·)
    ((hblk_apply V c t _).trans (congrArg (V c main_v0_3) (funext fun a => Fin.ext ?_)))
    ((eblk_apply V c t _).trans (congrArg (V c main_v3) (funext fun a => Fin.ext ?_)))
  · match a with
    | ⟨0, _⟩ =>
      show win1_0.index t (0 : Fin 2) * 1024 + 1 * (j 0).val = win1_2.index t (0 : Fin 2) * 1024 + 1 * (j 0).val
      omega
    | ⟨1, _⟩ =>
      show win1_0.index t (1 : Fin 2) * 256 + 1 * k.val = k.val
      omega
  · match a with
    | ⟨0, _⟩ =>
      show win1_1.index t (0 : Fin 2) * 1024 + 1 * (j 1).val = win1_2.index t (1 : Fin 2) * 1024 + 1 * (j 1).val
      omega
    | ⟨1, _⟩ =>
      show win1_1.index t (1 : Fin 2) * 256 + 1 * k.val = k.val
      omega

/-- An index of the output array is in point `t`'s block iff each coordinate is in the block's range on its axis. -/
theorem mem_blk1_2 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v4).slice (win1_2.rect t)).set ↔ _
  rw [View.set_slice_whole, Rect.mem_set_unit]
  exact Iff.rfl

/-- Entry (p, q) of the output is in the block of point 4·(p / 1024) + q / 1024, and every point writes back. -/
theorem covered1_2 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hN : 4 * ((i 0).val / 1024) + (i 1).val / 1024 < cfg1.N := by
    show _ < grid1.N
    rw [N_1]; omega
  obtain ⟨-, -, -, -, e4, e5⟩ := idx_facts1 ⟨4 * ((i 0).val / 1024) + (i 1).val / 1024, hN⟩
  have e4' : win1_2.index ⟨4 * ((i 0).val / 1024) + (i 1).val / 1024, hN⟩ (0 : Fin 2) = (4 * ((i 0).val / 1024) + (i 1).val / 1024) / 4 := e4
  have e5' : win1_2.index ⟨4 * ((i 0).val / 1024) + (i 1).val / 1024, hN⟩ (1 : Fin 2) = (4 * ((i 0).val / 1024) + (i 1).val / 1024) % 4 := e5
  refine ⟨⟨4 * ((i 0).val / 1024) + (i 1).val / 1024, hN⟩, flush1_2 _, ?_⟩
  rw [mem_blk1_2]
  intro a
  match a with
  | ⟨0, _⟩ =>
    show win1_2.index _ (0 : Fin 2) * 1024 ≤ (i 0).val ∧ (i 0).val < win1_2.index _ (0 : Fin 2) * 1024 + 1024
    rw [e4']; omega
  | ⟨1, _⟩ =>
    show win1_2.index _ (1 : Fin 2) * 1024 ≤ (i 1).val ∧ (i 1).val < win1_2.index _ (1 : Fin 2) * 1024 + 1024
    rw [e5']; omega

/-- The sixteen blocks tile the output array, so after the region it is the product, entry by entry. -/
theorem arr1_e (c : Dev nD) : (dat1 V c).arrAt 2 cfg1.N = Cert.Spec.outer (V c main_v0_3) (V c main_v3) :=
  (dat1 V c).arrAt_eq_of_cover 2 (Cert.Spec.outer (V c main_v0_3) (V c main_v3)) (fun t _ => flushed1_2 V c t) (covered1_2)

end Cert.KernelIdeal.HandVal

end
-- ==== Proof.RefVal.lean ====
/-
  The reference's results are the specification's functions of its arguments: its run's terms are the same compositions
  of pointwise operations, its two dot_generals the two sums.
-/
import proofs.«155521_j41248865910902_1_alg».proof.Proof.Gen.ReferenceIdeal.Run
import proofs.«155521_j41248865910902_1_alg».proof.Proof.Gen.ReferenceIdeal.Read
import proofs.«155521_j41248865910902_1_alg».proof.Proof.Spec

set_option maxRecDepth 16384

noncomputable section

namespace Cert.ReferenceIdeal.RefVal

open Idealize.ShloMosaic Idealize.ShloMosaic.TcCoe Idealize.SL.Sem
open Cert.ReferenceIdeal Cert.ReferenceIdeal.Gen Cert.Spec

/-- The reference's first dot_general, W·inp contracted over the 4096 inputs, is the specification's sum. -/
theorem v0_spec (x0 : A256) (x1 : A4096) : Read.val_main_v0 (F := Ideal) x0 x1 = newV x0 x1 := by
  funext i
  rw [Read.val_main_v0_apply]
  unfold newV
  refine Finset.sum_congr rfl fun k _ => ?_
  have el : Read.lidx_main_v0 i k = ix4096 ⟨(i 0).val, (i 0).isLt⟩ k := funext fun a => Fin.ext (by
    match a with
    | ⟨0, _⟩ => rfl
    | ⟨1, _⟩ => rfl)
  have er : Read.ridx_main_v0 i k = ix256 k ⟨(i 1).val, (i 1).isLt⟩ := funext fun a => Fin.ext (by
    match a with
    | ⟨0, _⟩ => rfl
    | ⟨1, _⟩ => rfl)
  rw [el, er]

/-- r - 1 > 0: where the neuron is still refractory. -/
theorem v7_spec (x3 : A256) : Read.val_main_v7 (F := Ideal) x3 = resting x3 := rfl

/-- The membrane update: u where refractory, else u + 0.1·v. -/
theorem v8_spec (x0 : A256) (x1 : A4096) (x2 x3 : A256) :
    Read.val_main_v8 (F := Ideal) x0 x1 x2 x3 = u1 x0 x1 x2 x3 := by
  unfold Read.val_main_v8 Read.val_main_v3 Read.val_main_v2 u1
  rw [v0_spec, v7_spec]
  rfl

/-- The refractory count: r - 1 where refractory, else 0 (the zero passes through an identity on the scalar). -/
theorem v11_spec (x3 : A256) : Read.val_main_v11 (F := Ideal) x3 = r1 x3 := rfl

/-- u₁ > 0.6: where the neuron fires. -/
theorem v13_spec (x0 : A256) (x1 : A4096) (x2 x3 : A256) :
    Read.val_main_v13 (F := Ideal) x0 x1 x2 x3 = firing x0 x1 x2 x3 := by
  unfold Read.val_main_v13 firing
  rw [v8_spec]
  rfl

/-- u' = u₁ - 0.6 where it fires, else u₁. -/
theorem v16_spec (x0 : A256) (x1 : A4096) (x2 x3 : A256) :
    Read.val_main_v16 (F := Ideal) x0 x1 x2 x3 = Gu x0 x1 x2 x3 := by
  unfold Read.val_main_v16 Read.val_main_v15 Gu
  rw [v13_spec, v8_spec]
  rfl

/-- r' = 0 where it fires, else r₁. -/
theorem v17_spec (x0 : A256) (x1 : A4096) (x2 x3 : A256) :
    Read.val_main_v17 (F := Ideal) x0 x1 x2 x3 = Gr x0 x1 x2 x3 := by
  unfold Read.val_main_v17 Gr
  rw [v13_spec, v11_spec]
  rfl

/-- z = 1 where it fires, else 0 (the result passes through an identity). -/
theorem v19_spec (x0 : A256) (x1 : A4096) (x2 x3 : A256) :
    Read.val_main_v19 (F := Ideal) x0 x1 x2 x3 = Gz x0 x1 x2 x3 := by
  unfold Read.val_main_v19 Read.val_main_v18 Gz
  rw [v13_spec]
  rfl

/-- eps' = 0.1·eps + inp. -/
theorem v22_spec (x0 x5 : A256) : Read.val_main_v22 (F := Ideal) x0 x5 = Geps x0 x5 := rfl

/-- h = 0.3·max(0, 1 - |(u' - 0.6)/0.6|). -/
theorem v33_spec (x0 : A256) (x1 : A4096) (x2 x3 : A256) :
    Read.val_main_v33 (F := Ideal) x0 x1 x2 x3 = Gh x0 x1 x2 x3 := by
  unfold Read.val_main_v33 Read.val_main_v31 Read.val_main_v29 Read.val_main_v27 Read.val_main_v26 Read.val_main_v24 Gh
  rw [v16_spec]
  rfl

/-- The reference's second dot_general, h·eps'ᵀ contracted over the 256 batch entries, is the specification's sum. -/
theorem v34_spec (x0 : A256) (x1 : A4096) (x2 x3 x5 : A256) :
    Read.val_main_v34 (F := Ideal) x0 x1 x2 x3 x5 = Ge x0 x1 x2 x3 x5 := by
  funext i
  rw [Read.val_main_v34_apply, v33_spec, v22_spec]
  unfold Ge outer
  refine Finset.sum_congr rfl fun k _ => ?_
  have el : Read.lidx_main_v34 i k = ix256 ⟨(i 0).val, (i 0).isLt⟩ k := funext fun a => Fin.ext (by
    match a with
    | ⟨0, _⟩ => rfl
    | ⟨1, _⟩ => rfl)
  have er : Read.ridx_main_v34 i k = ix256 ⟨(i 1).val, (i 1).isLt⟩ k := funext fun a => Fin.ext (by
    match a with
    | ⟨0, _⟩ => rfl
    | ⟨1, _⟩ => rfl)
  rw [el, er]

/-- The reference's run with each result at the specification's function of the launch contents of the arguments. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = Gz (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v16) = Gu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = Gr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = Ge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v22) = Geps (m ((c.tc : Thread nD τ).loc main_arg0)) (m ((c.tc : Thread nD τ).loc main_arg5))
      ∧ r.2.mem ((c.tc : Thread nD τ).loc main_v33) = Gh (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c).1.trans ((Read.val_main_v19_eq _ _ _ _).trans (v19_spec _ _ _ _)),
     (h c).2.1.trans ((Read.val_main_v16_eq _ _ _ _).trans (v16_spec _ _ _ _)),
     (h c).2.2.1.trans ((Read.val_main_v17_eq _ _ _ _).trans (v17_spec _ _ _ _)),
     (h c).2.2.2.1.trans ((Read.val_main_v34_eq _ _ _ _ _).trans (v34_spec _ _ _ _ _)),
     (h c).2.2.2.2.1.trans ((Read.val_main_v22_eq _ _).trans (v22_spec _ _)),
     (h c).2.2.2.2.2.1.trans ((Read.val_main_v33_eq _ _ _ _).trans (v33_spec _ _ _ _)),
     (h c).2.2.2.2.2.2⟩)
    (Value.run (F := Ideal) m ρ)

end Cert.ReferenceIdeal.RefVal

end
-- ==== Proof.Claims.lean ====
/-
  The five claims. The two kernels' frames are the launch over @main's three items (region 0, the host operations,
  region 1); the reference's frame is its run with the results dropped. Over the extended reals both programs end with
  the same six arrays: z, u', r', h are the update's functions of v = W·inp, u and r — the kernel's accumulation of the
  four block products over the reduction axis is the whole sum, in any grouping —; eps' = 0.1·eps + inp is computed
  by the same host operations on both sides; e' = h·eps'ᵀ is, entry by entry, the same sum over the batch whether taken
  block by block with a transposed operand or in one contraction.
-/
import proofs.«155521_j41248865910902_1_alg».proof.Defs
import proofs.«155521_j41248865910902_1_alg».proof.Proof.KI.Run
import proofs.«155521_j41248865910902_1_alg».proof.Proof.K.Run
import proofs.«155521_j41248865910902_1_alg».proof.Proof.KI.KVal0
import proofs.«155521_j41248865910902_1_alg».proof.Proof.KI.KVal1
import proofs.«155521_j41248865910902_1_alg».proof.Proof.RefVal
import proofs.«155521_j41248865910902_1_alg».proof.Proof.Gen.Pre_finite_inputs

set_option maxRecDepth 16384

noncomputable section

namespace Cert.Proof

open Idealize.ShloMosaic Idealize.ShloMosaic.TcCoe Idealize.SL.Sem
open Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2.2.2.2)
    (Cert.ReferenceIdeal.Value.run (F := Ideal) m ρ)

theorem preserves : Cert.preserves_Kernel_KernelIdeal := trivial

section
open Cert.KernelIdeal Cert.KernelIdeal.Gen Cert.KernelIdeal.Hand Cert.KernelIdeal.HandVal

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt Ideal) ℓ)

/-- The kernel's six results and its arguments at the end of the run, as functions of the launch contents. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Gz (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v0_1) = Gu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v0_2) = Gr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v4) = Ge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      ∧ r.2.mem ((c.tc : Thread nD τ).loc main_v3) = Geps (m ((c.tc : Thread Cert.KernelIdeal.nD Cert.KernelIdeal.τ).loc Cert.KernelIdeal.main_arg0)) (m ((c.tc : Thread Cert.KernelIdeal.nD Cert.KernelIdeal.τ).loc Cert.KernelIdeal.main_arg5))
      ∧ r.2.mem ((c.tc : Thread nD τ).loc main_v0_3) = Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_all (F := Ideal) m ρ)
  have hz := arr0_z (Vt0 m) c
  have hu := arr0_u (Vt0 m) c
  have hr := arr0_r (Vt0 m) c
  have hh := arr0_h (Vt0 m) c
  have heps : V2 m (outs m) c main_v3 = Geps (m ((c.tc : Thread Cert.KernelIdeal.nD Cert.KernelIdeal.τ).loc Cert.KernelIdeal.main_arg0)) (m ((c.tc : Thread Cert.KernelIdeal.nD Cert.KernelIdeal.τ).loc Cert.KernelIdeal.main_arg5)) := V2_v3 m c
  have he : (dat1 (Vt2 m) c).arrAt 2 cfg1.N = Ge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
    rw [arr1_e (Vt2 m) c, Vt2_v0_3 m c, Vt2_v3 m c, hh, heps]; rfl
  exact ⟨(h c _ (mem_uc main_v0_0 (by decide))).trans ((V3_v0_0 m c).trans hz),
    (h c _ (mem_uc main_v0_1 (by decide))).trans ((V3_v0_1 m c).trans hu),
    (h c _ (mem_uc main_v0_2 (by decide))).trans ((V3_v0_2 m c).trans hr),
    (h c _ (mem_uc main_v4 (by decide))).trans ((V3_v4 m c).trans he),
    (h c _ (mem_uc main_v3 (by decide))).trans ((V3_v3 m c).trans heps),
    (h c _ (mem_uc main_v0_3 (by decide))).trans ((V3_v0_3 m c).trans hh),
    (h c _ (mem_uc main_arg0 (by decide))).trans (V3_main_arg0 m (outs m) c),
    (h c _ (mem_uc main_arg1 (by decide))).trans (V3_main_arg1 m (outs m) c),
    (h c _ (mem_uc main_arg2 (by decide))).trans (V3_main_arg2 m (outs m) c),
    (h c _ (mem_uc main_arg3 (by decide))).trans (V3_main_arg3 m (outs m) c),
    (h c _ (mem_uc main_arg4 (by decide))).trans (V3_main_arg4 m (outs m) c),
    (h c _ (mem_uc main_arg5 (by decide))).trans (V3_main_arg5 m (outs m) c)⟩

end

/-- Both idealized programs, from memories agreeing on the arguments, end with the specification's six arrays. -/
theorem algebraic : Cert.algebraic_KernelIdeal_ReferenceIdeal := by
  intro m ρ m' ρ' _ hagree
  refine ⟨_, _, _, _, _, _, kernel_run m ρ, ?_⟩
  refine (θ_run Cert.ReferenceIdeal.defs _ _).mono (fun r h c => ?_) (Cert.ReferenceIdeal.RefVal.run_spec m' ρ')
  obtain ⟨h0, h1, h2, h3, h4, h5, ha⟩ := h c
  obtain ⟨e0, e1, e2, e3, e4, e5⟩ := hagree c
  simp only [e0, e1, e2, e3, e5] at h0 h1 h2 h3 h4 h5
  exact ⟨h0, h1, h2, h3, h4, h5, ha⟩

end Cert.Proof

end
-- ==== Proof.lean ====
/-
  A leaky integrate-and-fire step, kernel against reference: v = W·inp accumulated block by block over the reduction
  axis of a 4 × 4 grid with the membrane update fused at its last step, the trace input eps' = 0.1·eps + inp by host
  operations, and e' = h·eps'ᵀ block by block in a second launch — against the same update over one whole product and
  one contraction. The claims are proved in Proof/Claims.lean: the kernels' frames from the launch over @main's three
  items (Proof/KI/Run.lean for the idealized program, Proof/K/Run.lean for the word-level one), the values over the
  extended reals from the two regions' arrays (Proof/KI/KVal0.lean, KVal1.lean) and the reference's run (Proof/RefVal.lean)
  through one specification (Proof/Spec.lean).
-/
import proofs.«155521_j41248865910902_1_alg».proof.Defs
import proofs.«155521_j41248865910902_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
